-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 1 := constantI S_ 1 1#1
  let main_v6 : IVec S_ 1 := (fun x v => Host.reduce IntOp.andi x v reducesTo_S262144_S_d0 h_S_) main_v5 main_c_1
  let main_v7 : IVec S_ 1 := andi main_v3 main_v6
  let main_c_2 : IVec S_ 32 := constantI S_ 32 64#32
  let main_v8 : IVec S262144 32 := broadcastInDim S262144 ![] bcast_S_S262144 main_c_2
  let main_v9 : IVec S262144 1 := cmpi .slt main_arg1 main_v8
  let main_c_3 : IVec S_ 1 := constantI S_ 1 1#1
  let main_v10 : IVec S_ 1 := (fun x v => Host.reduce IntOp.andi x v reducesTo_S262144_S_d0 h_S_) main_v9 main_c_3
  let main_v11 : IVec S_ 1 := andi main_v7 main_v10
  main_v11
-- ==== Kernel.lean ====
abbrev S262144x128 : Shape := ⟨2, ![262144, 128]⟩
abbrev S262144 : Shape := ⟨1, ![262144]⟩
abbrev S1x262144 : Shape := ⟨2, ![1, 262144]⟩
abbrev S2x64x128 : Shape := ⟨3, ![2, 64, 128]⟩
abbrev S2x1x1 : Shape := ⟨3, ![2, 1, 1]⟩
abbrev S16384x128 : Shape := ⟨2, ![16384, 128]⟩
abbrev S1x16384 : Shape := ⟨2, ![1, 16384]⟩
abbrev S1x64x128 : Shape := ⟨3, ![1, 64, 128]⟩
abbrev S1x1x1 : Shape := ⟨3, ![1, 1, 1]⟩
abbrev S64x1 : Shape := ⟨2, ![64, 1]⟩
abbrev S64x16384 : Shape := ⟨2, ![64, 16384]⟩
abbrev S64x128 : Shape := ⟨2, ![64, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S64 : Shape := ⟨1, ![64]⟩
abbrev S262144x1 : Shape := ⟨2, ![262144, 1]⟩
abbrev S64x1x128 : Shape := ⟨3, ![64, 1, 128]⟩
abbrev S64x64x128 : Shape := ⟨3, ![64, 64, 128]⟩
abbrev S64x64 : Shape := ⟨2, ![64, 64]⟩

abbrev nBuf : Space → Nat
  | .hbm => 75
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S1x262144, .i32⟩
  | .hbm, ⟨3, _⟩ => ⟨S2x64x128, .f32⟩
  | .hbm, ⟨4, _⟩ => ⟨S2x1x1, .f32⟩
  | .hbm, ⟨5, _⟩ => ⟨S_, .f32⟩
  | .hbm, ⟨6, _⟩ => ⟨S64x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S64, .f32⟩
  | .hbm, ⟨13, _⟩ => ⟨S262144x1, .i32⟩
  | .hbm, ⟨14, _⟩ => ⟨S64, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64, .f32⟩
  | .hbm, ⟨24, _⟩ => ⟨S64x128, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64x1x128, .f32⟩
  | .hbm, ⟨39, _⟩ => ⟨S1x64x128, .f32⟩
  | .hbm, ⟨40, _⟩ => ⟨S64x64x128, .f32⟩
  | .hbm, ⟨41, _⟩ => ⟨S64x64x128, .f32⟩
  | .hbm, ⟨42, _⟩ => ⟨S64x64x128, .f32⟩
  | .hbm, ⟨43, _⟩ => ⟨S64x64x128, .f32⟩
  | .hbm, ⟨44, _⟩ => ⟨S_, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S64x64, .i32⟩
  | .hbm, ⟨62, _⟩ => ⟨S64x64, .i1⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S1x16384, .i32⟩
  | .local _ .vmem, ⟨3, _⟩ => ⟨S1x16384, .i32⟩
  | .local _ .vmem, ⟨4, _⟩ => ⟨S1x64x128, .f32⟩
  | .local _ .vmem, ⟨5, _⟩ => ⟨S1x64x128, .f32⟩
  | .local _ .vmem, ⟨6, _⟩ => ⟨S1x1x1, .f32⟩
  | .local _ .vmem, ⟨7, _⟩ => ⟨S1x1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_cst : Ref sig .tc := ⟨.hbm, 63, rfl⟩
abbrev main_call0_v5 : Ref sig .tc := ⟨.hbm, 64, rfl⟩
abbrev main_v39 : Ref sig .tc := ⟨.hbm, 65, rfl⟩
abbrev main_cst_14 : Ref sig .tc := ⟨.hbm, 66, rfl⟩
abbrev main_v40 : Ref sig .tc := ⟨.hbm, 67, rfl⟩
abbrev main_cst_15 : Ref sig .tc := ⟨.hbm, 68, rfl⟩
abbrev main_v41 : Ref sig .tc := ⟨.hbm, 69, rfl⟩
abbrev main_cst_16 : Ref sig .tc := ⟨.hbm, 70, rfl⟩
abbrev main_v42 : Ref sig .tc := ⟨.hbm, 71, rfl⟩
abbrev main_cst_17 : Ref sig .tc := ⟨.hbm, 72, rfl⟩
abbrev main_v43 : Ref sig .tc := ⟨.hbm, 73, rfl⟩
abbrev main_v44 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S1x262144 : S262144.ShapeCasts S1x262144
  inb_S1x64x128_S1x64x128_0_0_0 : ∀ a, (![0, 0, 0] : Fin 3 → Nat) a + S1x64x128.size a ≤ S1x64x128.size a
  h_S1x64x128 : 0 < S1x64x128.numel
  inb_S1x1x1_S1x1x1_0_0_0 : ∀ a, (![0, 0, 0] : Fin 3 → Nat) a + S1x1x1.size a ≤ S1x1x1.size a
  h_S1x1x1 : 0 < S1x1x1.numel
  inb_S16384x128_S16384x128_0_0 : ∀ a, (![0, 0] : Fin 2 → Nat) a + S16384x128.size a ≤ S16384x128.size a
  h_S16384x128 : 0 < S16384x128.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  iota_S64x1_d0_w32 : S64x1.Iotas .tc 32 [0]
  broadcasts_S64x1_S64x16384 : S64x1.Broadcasts S64x16384
  broadcasts_S1x16384_S64x16384 : S1x16384.Broadcasts S64x16384
  natLt_1_32 : 1 < 32
  bitsLt_bf16_f32 : FTy.bits .bf16 < FTy.bits .f32
  shapeCasts_S1x64x128_S64x128 : S1x64x128.ShapeCasts S64x128
  shapeCasts_S64x128_S1x64x128 : S64x128.ShapeCasts S1x64x128
  reduces_S16384x128_S128 : S16384x128.Reduces [0] S128
  shapeCasts_S128_S1x128 : S128.ShapeCasts S1x128
  reduces_S1x128_S1 : S1x128.Reduces [1] S1
  shapeCasts_S1_S1x1 : S1.ShapeCasts S1x1
  shapeCasts_S1x1x1_S1x1 : S1x1x1.ShapeCasts S1x1
  shapeCasts_S1x1_S1x1x1 : S1x1.ShapeCasts S1x1x1
  reducesTo_S2x64x128_S64x128_d0 : S2x64x128.ReducesTo [0] S64x128
  h_S_ : 0 < S_.numel
  reducesTo_S2x1x1_S_d0_1_2 : S2x1x1.ReducesTo [0, 1, 2] S_
  bcast_S_S262144 : S_.BroadcastsInDim S262144 (![] : Fin 0 → Fin S262144.rank)
  bcast_S_S64 : S_.BroadcastsInDim S64 (![] : Fin 0 → Fin S64.rank)
  bcast_S262144_S262144x1_0 : S262144.BroadcastsInDim S262144x1 (![0] : Fin 1 → Fin S262144x1.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  reducesTo_S64x128_S64_d1 : S64x128.ReducesTo [1] S64
  reducesTo_S64_S_d0 : S64.ReducesTo [0] S_
  bcast_S64x128_S64x1x128_0_2 : S64x128.BroadcastsInDim S64x1x128 (![0, 2] : Fin 2 → Fin S64x1x128.rank)
  bcast_S64x128_S1x64x128_1_2 : S64x128.BroadcastsInDim S1x64x128 (![1, 2] : Fin 2 → Fin S1x64x128.rank)
  bcast_S64x1x128_S64x64x128_0_1_2 : S64x1x128.BroadcastsInDim S64x64x128 (![0, 1, 2] : Fin 3 → Fin S64x64x128.rank)
  bcast_S1x64x128_S64x64x128_0_1_2 : S1x64x128.BroadcastsInDim S64x64x128 (![0, 1, 2] : Fin 3 → Fin S64x64x128.rank)
  reducesTo_S64x64x128_S64x64_d2 : S64x64x128.ReducesTo [2] S64x64
  bcast_S_S64x64 : S_.BroadcastsInDim S64x64 (![] : Fin 0 → Fin S64x64.rank)
  reducesTo_S64x64_S_d0_1 : S64x64.ReducesTo [0, 1] S_
  dot_S64x16384_S16384x128_S64x128_1_0_0_1_n_n_wf : DotDims.WF S64x16384 S16384x128 S64x128 [1] [0] [0] [1] [] []
  scatter_S64_S262144x1_S262144_n_0_0_1_wf : ScatterDims.WF S64 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x262144.size a
  hwx0_1 : ∀ i : grid0.Coords, EltTy.bits .i32 = 32 ∨ (Rect.block (s := S1x262144) S1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S64x16384_S16384x128_S64x128_1_0_0_1_n_n : DotDims S64x16384 S16384x128 S64x128 where
  lhsContracting := [1]
  rhsContracting := [0]
  lhsNonContracting := [0]
  rhsNonContracting := [1]
  lhsBatch := []
  rhsBatch := []
  wf := dot_S64x16384_S16384x128_S64x128_1_0_0_1_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S_ : Shape := ⟨0, ![]⟩
abbrev S64 : Shape := ⟨1, ![64]⟩
abbrev S262144x1 : Shape := ⟨2, ![262144, 1]⟩
abbrev S64x128 : Shape := ⟨2, ![64, 128]⟩
abbrev S64x1 : Shape := ⟨2, ![64, 1]⟩
abbrev S64x1x128 : Shape := ⟨3, ![64, 1, 128]⟩
abbrev S1x64x128 : Shape := ⟨3, ![1, 64, 128]⟩
abbrev S64x64x128 : Shape := ⟨3, ![64, 64, 128]⟩
abbrev S64x64 : Shape := ⟨2, ![64, 64]⟩

abbrev nBuf : Space → Nat
  | .hbm => 72
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S64, .f32⟩
  | .hbm, ⟨6, _⟩ => ⟨S262144x1, .i32⟩
  | .hbm, ⟨7, _⟩ => ⟨S64, .f32⟩
  | .hbm, ⟨8, _⟩ => ⟨S_, .f32⟩
  | .hbm, ⟨9, _⟩ => ⟨S64x128, .f32⟩
  | .hbm, ⟨10, _⟩ => ⟨S262144x1, .i32⟩
  | .hbm, ⟨11, _⟩ => ⟨S64x128, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x128, .f32⟩
  | .hbm, ⟨17, _⟩ => ⟨S64x128, .f32⟩
  | .hbm, ⟨18, _⟩ => ⟨S64x1x128, .f32⟩
  | .hbm, ⟨19, _⟩ => ⟨S1x64x128, .f32⟩
  | .hbm, ⟨20, _⟩ => ⟨S64x64x128, .f32⟩
  | .hbm, ⟨21, _⟩ => ⟨S64x64x128, .f32⟩
  | .hbm, ⟨22, _⟩ => ⟨S64x64x128, .f32⟩
  | .hbm, ⟨23, _⟩ => ⟨S64x64x128, .f32⟩
  | .hbm, ⟨24, _⟩ => ⟨S_, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S262144, .i32⟩
  | .hbm, ⟨56, _⟩ => ⟨S262144, .i1⟩
  | .hbm, ⟨57, _⟩ => ⟨S_, .i32⟩
  | .hbm, ⟨58, _⟩ => ⟨S262144, .i32⟩
  | .hbm, ⟨59, _⟩ => ⟨S262144, .i32⟩
  | .hbm, ⟨60, _⟩ => ⟨S262144, .i32⟩
  | .hbm, ⟨61, _⟩ => ⟨S262144x1, .i32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S_, .f32⟩
  | .hbm, ⟨66, _⟩ => ⟨S262144, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_cst : Ref sig .tc := ⟨.hbm, 43, rfl⟩
abbrev main_call1_v5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_cst_13 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S64 : S_.BroadcastsInDim S64 (![] : Fin 0 → Fin S64.rank)
  bcast_S262144_S262144x1_0 : S262144.BroadcastsInDim S262144x1 (![0] : Fin 1 → Fin S262144x1.rank)
  bcast_S_S64x128 : S_.BroadcastsInDim S64x128 (![] : Fin 0 → Fin S64x128.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S64x128_S64x1x128_0_2 : S64x128.BroadcastsInDim S64x1x128 (![0, 2] : Fin 2 → Fin S64x1x128.rank)
  bcast_S64x128_S1x64x128_1_2 : S64x128.BroadcastsInDim S1x64x128 (![1, 2] : Fin 2 → Fin S1x64x128.rank)
  bcast_S64x1x128_S64x64x128_0_1_2 : S64x1x128.BroadcastsInDim S64x64x128 (![0, 1, 2] : Fin 3 → Fin S64x64x128.rank)
  bcast_S1x64x128_S64x64x128_0_1_2 : S1x64x128.BroadcastsInDim S64x64x128 (![0, 1, 2] : Fin 3 → Fin S64x64x128.rank)
  reducesTo_S64x64x128_S64x64_d2 : S64x64x128.ReducesTo [2] S64x64
  h_S_ : 0 < S_.numel
  bcast_S_S64x64 : S_.BroadcastsInDim S64x64 (![] : Fin 0 → Fin S64x64.rank)
  reducesTo_S64x64_S_d0_1 : S64x64.ReducesTo [0, 1] S_
  reducesTo_S262144x128_S262144_d1 : S262144x128.ReducesTo [1] S262144
  reducesTo_S262144_S_d0 : S262144.ReducesTo [0] S_
  scatter_S64_S262144x1_S262144_n_0_0_1_wf : ScatterDims.WF S64 S262144x1 S262144 [] [0] [0] 1
  scatter_S64x128_S262144x1_S262144x128_1_0_0_1_wf : ScatterDims.WF S64x128 S262144x1 S262144x128 [1] [0] [0] 1
  gather_S64x128_S262144x1_S262144x128_1_0_n_n_0_1_1128_wf : GatherDims.WF S64x128 S262144x1 S262144x128 [1] [0] [] [0] [] 1 ![1, 128]

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def scatter_S64x128_S262144x1_S262144x128_1_0_0_1 : ScatterDims S64x128 S262144x1 S262144x128 where
  updateWindowDims := [1]
  insertedWindowDims := [0]
  scatterDimsToOperandDims := [0]
  indexVectorDim := 1
  wf := scatter_S64x128_S262144x1_S262144x128_1_0_0_1_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf

class Facts : Prop extends Facts₀ where

variable [Facts]
-- ==== Proof.KbShared.lean ====
/-
  The program's one pipelined region, with one host operation before it (the labels reshaped to a row) and three
  stretches of host operations after it. What the two control cases of the body share: how @main reduces to the
  region continued by the later operations; that those operations touch only unscoped buffers, allocate nothing and
  write none of the region's four arrays; each window's block at a grid point; how the frame claim follows from a
  run of the region; and the body's one branch condition (the second grid coordinate is zero), decided over the
  sixteen points: it holds exactly at points 0 and 8.
-/
import proofs.«424627_j40870908788740_3_alg».proof.Proof.Gen.Kernel.Launch
import proofs.«424627_j40870908788740_3_alg».proof.Proof.Gen.Kernel.Skeleton
import proofs.«424627_j40870908788740_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the reshape, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the first later stretch writes one of the region's arrays: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- The reshape writes neither argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes the labels: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data whose arrays are the region-entry contents, a run to the library's post read at the two
    arguments — the embeddings a staged input, the labels a buffer no window stages and no later operation writes —
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch condition -/

/-- The condition of the body's one branch, from the grid coordinates. -/
abbrev cond0_0 (i : grid0.Coords) : Prop := (Scalar.cmpi .ne (Scalar.extui (Scalar.cmpi .eq (BitVec.ofNat 32 (i 1).val) 0#32)) 0#32) = 1#1
/-- It holds at the first point of each half of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each output window, through which its contents are stated. -/
abbrev VO0_2 : View sig .tc .vmem S1x64x128 .f32 := (Memref.whole cc0_stg2_0 : Memref sig .tc .vmem S1x64x128 .f32).view
abbrev VO0_3 : View sig .tc .vmem S1x1x1 .f32 := (Memref.whole cc0_stg3_0 : Memref sig .tc .vmem S1x1x1 .f32).view
/-- Each window's current staging memref at point `t`, as the pipeline passes it, and its wholeness. -/
abbrev ms0_0 (t : Fin cfg0.N) : Memref sig .tc .vmem S16384x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.Kernel.Hand

end
-- ==== Proof.KbRunA.lean ====
/-
  The kernel body run once, whole, in the case of the branch taken (the first point of each half of the grid): both accumulators are reset to zero and then added to. The accumulators' buffers start at anything.
  On whole staging memrefs, the two inputs' at their contents, the body runs to the continuation holding the inputs'
  as they were and each accumulator's buffer with the pieces its stores wrote, last first; the pieces are found by
  the run, not transcribed.
-/
import proofs.«424627_j40870908788740_3_alg».proof.Proof.KbShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two accumulators' staging memrefs in this case, with the proof that the
    body runs to the continuation holding them so. -/
noncomputable def kernelRun0_A (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i)
    (x0 : Vec F S16384x128 .f32) (x1 : Vec F S1x16384 .i32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__sumcount_kernel i arg2 harg2 arg3 harg3 arg4 harg4 arg5 harg5) K } := by
  refine ⟨?_, ?_, fun E K => ?run⟩
  case run =>
    simp only [cc0__sumcount_kernel_eq_skeleton]; unfold cc0__sumcount_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.KbRunB.lean ====
/-
  The kernel body run once, whole, in the case of the branch not taken (every other point): both accumulators are added to. Their buffers start at the running contents.
  On whole staging memrefs, the two inputs' at their contents, the body runs to the continuation holding the inputs'
  as they were and each accumulator's buffer with the pieces its stores wrote, last first; the pieces are found by
  the run, not transcribed.
-/
import proofs.«424627_j40870908788740_3_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two accumulators' staging memrefs in this case, with the proof that the
    body runs to the continuation holding them so. -/
noncomputable def kernelRun0_B (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i)
    (x0 : Vec F S16384x128 .f32) (x1 : Vec F S1x16384 .i32) (xo2 : Vec F S1x64x128 .f32) (xo3 : Vec F S1x1x1 .f32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__sumcount_kernel i arg2 harg2 arg3 harg3 arg4 harg4 arg5 harg5) K } := by
  refine ⟨?_, ?_, fun E K => ?run⟩
  case run =>
    simp only [cc0__sumcount_kernel_eq_skeleton]; unfold cc0__sumcount_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.KbFrame.lean ====
/-
  The frame of the program, over any float instance. In the case of a reset point (points 0 and 8) each accumulator
  ends at the pieces of two whole stores, the later covering; at every other point at the piece of one whole store
  computed from what the point before left, which the pipeline has not written back in between (it writes the
  accumulators back only after points 7 and 15). From that: what the accumulators hold after each point, by recursion
  on the point; the pipeline's proof data; the body's obligation at a generic point; the run of @main around its one
  region; and the frame claim.
-/
import proofs.«424627_j40870908788740_3_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) (y : S1x64x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x64x128.size (by sl_kernel_rfl) y
theorem cover0_A_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y
theorem cover0_B_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) (y : S1x64x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x64x128.size (by sl_kernel_rfl) y
theorem cover0_B_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-- What a reset point leaves in the class-sum accumulator: its pieces read back. -/
def out0_A_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) : Vec F S1x64x128 .f32 :=
  VO0_2.read (Elt F) (VO0_2.writes (Elt F) VO0_2.junk (kernelRun0_A c i arg2 harg2 arg3 harg3 arg4 harg4 arg5 harg5 hc0 x0 x1).1)
/-- What a reset point leaves in the scalar accumulator. -/
def out0_A_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) : Vec F S1x1x1 .f32 :=
  VO0_3.read (Elt F) (VO0_3.writes (Elt F) VO0_3.junk (kernelRun0_A c i arg2 harg2 arg3 harg3 arg4 harg4 arg5 harg5 hc0 x0 x1).2.1)
/-- What any other point leaves in the class-sum accumulator, over what it found there. -/
def out0_B_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) : Vec F S1x64x128 .f32 :=
  VO0_2.read (Elt F) (VO0_2.writes (Elt F) VO0_2.junk (kernelRun0_B c i arg2 harg2 arg3 harg3 arg4 harg4 arg5 harg5 hc0 x0 x1 xo2 xo3).1)
/-- What any other point leaves in the scalar accumulator, over what it found there. -/
def out0_B_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The accumulation: after point `n` the two accumulators hold what the point's case leaves, a point that is not
    a reset starting from what point `n - 1` left. -/
def outsAt0 (c : Dev nD) : (n : ℕ) → n < cfg0.N → Vec F S1x64x128 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a reset point: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not a reset an accumulator's current staging buffer holds what the body left at the point
    before: the point is not the first and the buffer was not written back in between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the point is a reset or it is not, and then the
    accumulators hold what the point before left; so that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    region at what the library computes from the proof data and every other unscoped buffer at what the later
    operations compute from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KiShared.lean ====
/-
  The program's one pipelined region, with one host operation before it (the labels reshaped to a row) and three
  stretches of host operations after it. What the two control cases of the body share: how @main reduces to the
  region continued by the later operations; that those operations touch only unscoped buffers, allocate nothing and
  write none of the region's four arrays; each window's block at a grid point; how the frame claim follows from a
  run of the region; and the body's one branch condition (the second grid coordinate is zero), decided over the
  sixteen points: it holds exactly at points 0 and 8.
-/
import proofs.«424627_j40870908788740_3_alg».proof.Proof.Gen.KernelIdeal.Launch
import proofs.«424627_j40870908788740_3_alg».proof.Proof.Gen.KernelIdeal.Skeleton
import proofs.«424627_j40870908788740_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operations after the region, stretch by stretch. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the reshape, the region, then the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch the region's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of the first later stretch writes one of the region's arrays: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write no array of the region. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- The reshape writes neither argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes the labels: they end as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data whose arrays are the region-entry contents, a run to the library's post read at the two
    arguments — the embeddings a staged input, the labels a buffer no window stages and no later operation writes —
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's branch condition -/

/-- The condition of the body's one branch, from the grid coordinates. -/
abbrev cond0_0 (i : grid0.Coords) : Prop := (Scalar.cmpi .ne (Scalar.extui (Scalar.cmpi .eq (BitVec.ofNat 32 (i 1).val) 0#32)) 0#32) = 1#1
/-- It holds at the first point of each half of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs -/

/-- One staging buffer of each output window, through which its contents are stated. -/
abbrev VO0_2 : View sig .tc .vmem S1x64x128 .f32 := (Memref.whole cc0_stg2_0 : Memref sig .tc .vmem S1x64x128 .f32).view
abbrev VO0_3 : View sig .tc .vmem S1x1x1 .f32 := (Memref.whole cc0_stg3_0 : Memref sig .tc .vmem S1x1x1 .f32).view
/-- Each window's current staging memref at point `t`, as the pipeline passes it, and its wholeness. -/
abbrev ms0_0 (t : Fin cfg0.N) : Memref sig .tc .vmem S16384x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KiRunA.lean ====
/-
  The kernel body run once, whole, in the case of the branch taken (the first point of each half of the grid): both accumulators are reset to zero and then added to. The accumulators' buffers start at anything.
  On whole staging memrefs, the two inputs' at their contents, the body runs to the continuation holding the inputs'
  as they were and each accumulator's buffer with the pieces its stores wrote, last first; the pieces are found by
  the run, not transcribed.
-/
import proofs.«424627_j40870908788740_3_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two accumulators' staging memrefs in this case, with the proof that the
    body runs to the continuation holding them so. -/
noncomputable def kernelRun0_A (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i)
    (x0 : Vec F S16384x128 .f32) (x1 : Vec F S1x16384 .i32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__sumcount_kernel i arg2 harg2 arg3 harg3 arg4 harg4 arg5 harg5) K } := by
  refine ⟨?_, ?_, fun E K => ?run⟩
  case run =>
    simp only [cc0__sumcount_kernel_eq_skeleton]; unfold cc0__sumcount_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KiRunB.lean ====
/-
  The kernel body run once, whole, in the case of the branch not taken (every other point): both accumulators are added to. Their buffers start at the running contents.
  On whole staging memrefs, the two inputs' at their contents, the body runs to the continuation holding the inputs'
  as they were and each accumulator's buffer with the pieces its stores wrote, last first; the pieces are found by
  the run, not transcribed.
-/
import proofs.«424627_j40870908788740_3_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the two accumulators' staging memrefs in this case, with the proof that the
    body runs to the continuation holding them so. -/
noncomputable def kernelRun0_B (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i)
    (x0 : Vec F S16384x128 .f32) (x1 : Vec F S1x16384 .i32) (xo2 : Vec F S1x64x128 .f32) (xo3 : Vec F S1x1x1 .f32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__sumcount_kernel i arg2 harg2 arg3 harg3 arg4 harg4 arg5 harg5) K } := by
  refine ⟨?_, ?_, fun E K => ?run⟩
  case run =>
    simp only [cc0__sumcount_kernel_eq_skeleton]; unfold cc0__sumcount_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KiFrame.lean ====
/-
  The frame of the program, over any float instance. In the case of a reset point (points 0 and 8) each accumulator
  ends at the pieces of two whole stores, the later covering; at every other point at the piece of one whole store
  computed from what the point before left, which the pipeline has not written back in between (it writes the
  accumulators back only after points 7 and 15). From that: what the accumulators hold after each point, by recursion
  on the point; the pipeline's proof data; the body's obligation at a generic point; the run of @main around its one
  region; and the frame claim.
-/
import proofs.«424627_j40870908788740_3_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

theorem cover0_A_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) (y : S1x64x128.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x64x128.size (by sl_kernel_rfl) y
theorem cover0_A_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y
theorem cover0_B_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) (y : S1x64x128.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x64x128.size (by sl_kernel_rfl) y
theorem cover0_B_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-- What a reset point leaves in the class-sum accumulator: its pieces read back. -/
def out0_A_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) : Vec F S1x64x128 .f32 :=
  VO0_2.read (Elt F) (VO0_2.writes (Elt F) VO0_2.junk (kernelRun0_A c i arg2 harg2 arg3 harg3 arg4 harg4 arg5 harg5 hc0 x0 x1).1)
/-- What a reset point leaves in the scalar accumulator. -/
def out0_A_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : cond0_0 i) (x0 : Vec F S16384x128 .f32) (x1 : Vec F S1x16384 .i32) : Vec F S1x1x1 .f32 :=
  VO0_3.read (Elt F) (VO0_3.writes (Elt F) VO0_3.junk (kernelRun0_A c i arg2 harg2 arg3 harg3 arg4 harg4 arg5 harg5 hc0 x0 x1).2.1)
/-- What any other point leaves in the class-sum accumulator, over what it found there. -/
def out0_B_2 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) : Vec F S1x64x128 .f32 :=
  VO0_2.read (Elt F) (VO0_2.writes (Elt F) VO0_2.junk (kernelRun0_B c i arg2 harg2 arg3 harg3 arg4 harg4 arg5 harg5 hc0 x0 x1 xo2 xo3).1)
/-- What any other point leaves in the scalar accumulator, over what it found there. -/
def out0_B_3 (c : Dev nD) (i : grid0.Coords) (arg2 : Memref sig .tc .vmem S16384x128 .f32) (harg2 : arg2.IsWhole) (arg3 : Memref sig .tc .vmem S1x16384 .i32) (harg3 : arg3.IsWhole) (arg4 : Memref sig .tc .vmem S1x64x128 .f32) (harg4 : arg4.IsWhole) (arg5 : Memref sig .tc .vmem S1x1x1 .f32) (harg5 : arg5.IsWhole) (hc0 : ¬cond0_0 i) (x0 : Vec F S16384x128 .f32) (x1 : Vec F S1x16384 .i32) (xo2 : Vec F S1x64x128 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The accumulation: after point `n` the two accumulators hold what the point's case leaves, a point that is not
    a reset starting from what point `n - 1` left. -/
def outsAt0 (c : Dev nD) : (n : ℕ) → n < cfg0.N → Vec F S1x64x128 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
      out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a reset point: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not a reset an accumulator's current staging buffer holds what the body left at the point
    before: the point is not the first and the buffer was not written back in between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks; the point is a reset or it is not, and then the
    accumulators hold what the point before left; so that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    region at what the library computes from the proof data and every other unscoped buffer at what the later
    operations compute from the region's exit. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KPay.lean ====
/-
  The kernel body's four stored values over the extended reals, read at an index: the two resets are zero; the
  accumulated class sums are the running table plus, for each class, the block's rows whose label is the class;
  the accumulated scalar is the running value plus the sum of the block's squares.
-/
import proofs.«424627_j40870908788740_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen
open Idealize.ShloMosaic Idealize.ShloMosaic.ValueIdx
open scoped BigOperators

/-- The class-sum reset is zero. -/
theorem pay1_apply (j : S1x64x128.Idx) : k0_pay1 (F := Ideal) j = 0 := by
  exact Ideal.ofBits_zero_f32

/-- The scalar reset is zero. -/
theorem pay2_apply (j : S1x1x1.Idx) : k0_pay2 (F := Ideal) j = 0 := by
  exact Ideal.ofBits_zero_f32

/-! ## The product's operand indices

The product contracts the one-hot table's columns against the block's rows: at output index (row, column) and
contraction coordinate q the left operand is read at (row, q) and the right operand at (q, column). -/

/-- The left operand's index at output index `i` and contraction index `q`: its row is the output row. -/
private theorem lhs_0 (i : S64x128.Idx) (q : dot_S64x16384_S16384x128_S64x128_1_0_0_1_n_n.contr.Idx) :
    (dot_S64x16384_S16384x128_S64x128_1_0_0_1_n_n.lhsIdx i q 0).val = (i 0).val := by
  unfold DotDims.lhsIdx
  rw [dif_neg (show ¬(0 : Fin S64x16384.rank) ∈ dot_S64x16384_S16384x128_S64x128_1_0_0_1_n_n.lhsBatch by decide),
    dif_pos (show (0 : Fin S64x16384.rank) ∈ dot_S64x16384_S16384x128_S64x128_1_0_0_1_n_n.lhsNonContracting by decide)]
  rfl

/-- … and its column is the contraction coordinate. -/
private theorem lhs_1 (i : S64x128.Idx) (q : dot_S64x16384_S16384x128_S64x128_1_0_0_1_n_n.contr.Idx) :
    (dot_S64x16384_S16384x128_S64x128_1_0_0_1_n_n.lhsIdx i q 1).val = (q ⟨0, by decide⟩).val :=
  dot_S64x16384_S16384x128_S64x128_1_0_0_1_n_n.lhsIdx_val_of_single rfl i q

/-- The right operand's row is the contraction coordinate … -/
private theorem rhs_0 (i : S64x128.Idx) (q : dot_S64x16384_S16384x128_S64x128_1_0_0_1_n_n.contr.Idx) :
    (dot_S64x16384_S16384x128_S64x128_1_0_0_1_n_n.rhsIdx i q 0).val = (q ⟨0, by decide⟩).val :=
  dot_S64x16384_S16384x128_S64x128_1_0_0_1_n_n.rhsIdx_val_of_single rfl i q

/-- … and its column is the output column. -/
private theorem rhs_1 (i : S64x128.Idx) (q : dot_S64x16384_S16384x128_S64x128_1_0_0_1_n_n.contr.Idx) :
    (dot_S64x16384_S16384x128_S64x128_1_0_0_1_n_n.rhsIdx i q 1).val = (i 1).val := by
  unfold DotDims.rhsIdx
  rw [dif_neg (show ¬(1 : Fin S16384x128.rank) ∈ dot_S64x16384_S16384x128_S64x128_1_0_0_1_n_n.rhsBatch by decide),
    dif_pos (show (1 : Fin S16384x128.rank) ∈ dot_S64x16384_S16384x128_S64x128_1_0_0_1_n_n.rhsNonContracting by decide)]
  rfl

/-! ## The one-hot entry

Row c of the iota is the word of c; it equals a label word exactly when the label, read signed, is c (c is below 64, far
inside the signed range), so the comparison bit, widened and converted, is 1 on the label's class and 0 elsewhere. -/

/-- The iota word of a class below 64 equals a 32-bit word exactly when the word, read signed, is the class. -/
private theorem ofNat_eq_iff (c : Fin 64) (w : BitVec 32) : BitVec.ofNat 32 c.val = w ↔ w.toInt = (c.val : ℤ) := by
  have hc : (BitVec.ofNat 32 c.val).toInt = (c.val : ℤ) := by
    have := c.isLt
    rw [BitVec.toInt_ofNat']
    apply Int.bmod_eq_of_le <;> omega
  constructor
  · rintro rfl; exact hc
  · intro h; exact BitVec.toInt_inj.mp (hc.trans h.symm)

/-- The one-hot entry: the comparison bit widened to 32 bits and converted is 1 on the label's class and 0 off it. -/
private theorem onehot_word (c : Fin 64) (w : BitVec 32) :
    FloatOps.sitofp (F := Ideal) .f32 ((IntOp.cmpi .eq (BitVec.ofNat 32 c.val) w).setWidth 32)
      = if w.toInt = (c.val : ℤ) then 1 else 0 := by
  show (((((IntOp.cmpi .eq (BitVec.ofNat 32 c.val) w).setWidth 32).toInt : ℤ) : ℝ) : EReal) = _
  by_cases h : w.toInt = (c.val : ℤ)
  · have hw : BitVec.ofNat 32 c.val = w := (ofNat_eq_iff c w).mpr h
    rw [if_pos h, hw]
    have : ((IntOp.cmpi .eq w w).setWidth 32).toInt = 1 := by simp [IntOp.cmpi]
    rw [this]; simp
  · have hw : ¬ BitVec.ofNat 32 c.val = w := fun e => h ((ofNat_eq_iff c w).mp e)
    have hb : (BitVec.ofNat 32 c.val == w) = false := beq_eq_false_iff_ne.mpr hw
    rw [if_neg h]
    have : ((IntOp.cmpi .eq (BitVec.ofNat 32 c.val) w).setWidth 32).toInt = 0 := by simp [IntOp.cmpi, hb]
    rw [this]; simp

/-- The accumulated class sums at class c, column d. -/
theorem pay3_apply (v3 : Vec Ideal S16384x128 .f32) (v4 : Vec Ideal S1x16384 .i32) (v15 : Vec Ideal S1x64x128 .f32)
    (c : Fin 64) (d : Fin 128) :
    k0_pay3 (F := Ideal) v3 v4 v15 (ix3 (0 : Fin 1) c d)
      = v15 (ix3 (0 : Fin 1) c d)
        + ∑ k : Fin 16384, (if (v4 (ix2 (0 : Fin 1) k)).toInt = (c.val : ℤ) then v3 (ix2 k d) else 0) := by
  unfold k0_pay3
  refine (shapeCast_ab_1ab_apply _ _ 0 c d).trans ?_
  rw [addf_apply, shapeCast_1ab_ab_apply]
  refine congrArg (v15 (ix3 (0 : Fin 1) c d) + ·) ?_
  refine (Ideal.matmul_constant_zero_apply dot_S64x16384_S16384x128_S64x128_1_0_0_1_n_n none _ _ (ix2 c d)).trans ?_
  rw [← Equiv.sum_comp (contrEquiv1 dot_S64x16384_S16384x128_S64x128_1_0_0_1_n_n 16384 rfl rfl).symm]
  refine Finset.sum_congr rfl fun k _ => ?_
  have hk := contrEquiv1_symm_val dot_S64x16384_S16384x128_S64x128_1_0_0_1_n_n 16384 rfl rfl k
  have el : dot_S64x16384_S16384x128_S64x128_1_0_0_1_n_n.lhsIdx (ix2 c d)
      ((contrEquiv1 dot_S64x16384_S16384x128_S64x128_1_0_0_1_n_n 16384 rfl rfl).symm k) = ix2 c k :=
    funext fun a => Fin.ext (by
      match a with
      | ⟨0, _⟩ => exact lhs_0 _ _
      | ⟨1, _⟩ => exact (lhs_1 _ _).trans hk)
  have er : dot_S64x16384_S16384x128_S64x128_1_0_0_1_n_n.rhsIdx (ix2 c d)
      ((contrEquiv1 dot_S64x16384_S16384x128_S64x128_1_0_0_1_n_n 16384 rfl rfl).symm k) = ix2 k d :=
    funext fun a => Fin.ext (by
      match a with
      | ⟨0, _⟩ => exact (rhs_0 _ _).trans hk
      | ⟨1, _⟩ => exact rhs_1 _ _)
  rw [el, er, truncf_apply, truncf_apply, sitofp_apply, extui_apply]
  have hi : broadcastTo S64x16384 (iota Kind.tc S64x1 32 [0] iota_S64x1_d0_w32) broadcasts_S64x1_S64x16384 (ix2 c k)
      = BitVec.ofNat 32 c.val := by
    refine (broadcastTo_apply _ broadcasts_S64x1_S64x16384 (ix2 c k) (ix2 c (0 : Fin 1)) fun a => ?_).trans ?_
    · match a with
      | ⟨0, _⟩ => rfl
      | ⟨1, _⟩ => rfl
    · exact iota_single_apply Kind.tc S64x1 32 0 iota_S64x1_d0_w32 (ix2 c (0 : Fin 1))
  have hv : broadcastTo S64x16384 (shapeCast S1x16384 v4 shapeCasts_S1x16384_S1x16384) broadcasts_S1x16384_S64x16384 (ix2 c k)
      = v4 (ix2 (0 : Fin 1) k) := by
    rw [broadcastTo_1b_ab_apply, shapeCast_self]
  have hcm : cmpi CmpIPredicate.eq
      (broadcastTo S64x16384 (iota Kind.tc S64x1 32 [0] iota_S64x1_d0_w32) broadcasts_S64x1_S64x16384)
      (broadcastTo S64x16384 (shapeCast S1x16384 v4 shapeCasts_S1x16384_S1x16384) broadcasts_S1x16384_S64x16384)
      (ix2 c k) = IntOp.cmpi .eq (BitVec.ofNat 32 c.val) (v4 (ix2 (0 : Fin 1) k)) := by
    show IntOp.cmpi .eq _ _ = _
    rw [hi, hv]
  rw [hcm, onehot_word]
  split
  · exact one_mul _
  · exact zero_mul _

/-- The accumulated sum of squares. -/
theorem pay4_apply (v3 : Vec Ideal S16384x128 .f32) (v26 : Vec Ideal S1x1x1 .f32) :
    k0_pay4 (F := Ideal) v3 v26 (ix3 (0 : Fin 1) (0 : Fin 1) (0 : Fin 1))
      = v26 (ix3 (0 : Fin 1) (0 : Fin 1) (0 : Fin 1))
        + ∑ k : Fin 16384, ∑ d : Fin 128, v3 (ix2 k d) * v3 (ix2 k d) := by
  unfold k0_pay4
  refine (shapeCast_ab_1ab_apply _ _ 0 0 0).trans ?_
  rw [addf_apply, shapeCast_1ab_ab_apply, shapeCast_a_1a_apply]
  refine congrArg (v26 (ix3 (0 : Fin 1) (0 : Fin 1) (0 : Fin 1)) + ·) ?_
  refine (Ideal.multiReduction_add_single (φ := .f32) _ _ reduces_S1x128_S1 _ _ (ix1 (0 : Fin 1))).trans ?_
  rw [Finset.sum_comm]
  refine Finset.sum_congr rfl fun (d : Fin 128) _ => ?_
  have hl : reduces_S1x128_S1.lift (ix1 (0 : Fin 1)) d = ix2 (0 : Fin 1) d := by
    funext a
    match a with
    | ⟨0, _⟩ => exact Fin.ext rfl
    | ⟨1, _⟩ => exact Fin.ext rfl
  rw [hl, shapeCast_a_1a_apply]
  refine (Ideal.multiReduction_add_single (φ := .f32) _ _ reduces_S16384x128_S128 _ _ (ix1 d)).trans ?_
  refine Finset.sum_congr rfl fun (k : Fin 16384) _ => ?_
  have hr : reduces_S16384x128_S128.lift (ix1 d) k = ix2 k d := by
    funext a
    match a with
    | ⟨0, _⟩ => exact Fin.ext rfl
    | ⟨1, _⟩ => exact Fin.ext rfl
  rw [hr, mulf_apply]

end Cert.KernelIdeal.KPay

end
-- ==== Proof.SegMath.lean ====
/-
  Segment sums over the extended reals: N = 262144 labelled rows of 128 columns, 64 classes. The count of a class,
  the per-class column sums, the sum of all squares, and the class a label names; and the law that joins the two
  programs: the sum of squared distances of every row to its class's centre, expanded.
-/
import Idealize.ShloMosaic.PureOps.Ideal

noncomputable section

namespace Cert.SegMath

open scoped BigOperators

variable (E : Fin 262144 → Fin 128 → EReal) (T : Fin 262144 → BitVec 32)

/-- How many rows carry the label `c` (a label is read signed). -/
def cnt (c : Fin 64) : EReal := ∑ i : Fin 262144, if (T i).toInt = (c.val : ℤ) then (1 : EReal) else 0

/-- Column `d` summed over the rows labelled `c`. -/
def seg (c : Fin 64) (d : Fin 128) : EReal := ∑ i : Fin 262144, if (T i).toInt = (c.val : ℤ) then E i d else 0

/-- The sum of the squares of every entry. -/
def ssq : EReal := ∑ i : Fin 262144, ∑ d : Fin 128, E i d * E i d

/-- The class row `i`'s label names: the label read signed and clamped into the table's 64 rows. -/
def cls (i : Fin 262144) : Fin 64 := ⟨min (T i).toInt.toNat 63, by omega⟩

end Cert.SegMath

end
-- ==== Proof.SegBlocks.lean ====
/-
  The 262144 rows as 16 consecutive blocks of 16384: a sum over the rows is the sum over the blocks of the sum over
  each block's rows. Stated for the per-class column sums and for the sum of squares.
-/
import proofs.«424627_j40870908788740_3_alg».proof.Proof.SegMath

noncomputable section

namespace Cert.SegMath

open scoped BigOperators

variable (E : Fin 262144 → Fin 128 → EReal) (T : Fin 262144 → BitVec 32)

/-- Row `k` of block `t`. -/
def rowOf (t : Fin 16) (k : Fin 16384) : Fin 262144 := ⟨t.val * 16384 + k.val, by have := t.isLt; have := k.isLt; omega⟩

/-- The rows, in bijection with the pairs (block, row within the block): quotient and remainder by 16384. -/
private def rowEquiv : Fin 16 × Fin 16384 ≃ Fin 262144 where
  toFun p := rowOf p.1 p.2
  invFun i := (⟨i.val / 16384, by have := i.isLt; omega⟩, ⟨i.val % 16384, by omega⟩)
  left_inv := fun ⟨t, k⟩ => by
    have ht := t.isLt
    have hk := k.isLt
    refine Prod.ext (Fin.ext ?_) (Fin.ext ?_) <;> simp only [rowOf] <;> omega
  right_inv := fun i => by
    have hi := i.isLt
    refine Fin.ext ?_
    simp only [rowOf]
    omega

/-- A sum over the rows, block by block. -/
theorem sum_rows_blocks (f : Fin 262144 → EReal) : ∑ i : Fin 262144, f i = ∑ t : Fin 16, ∑ k : Fin 16384, f (rowOf t k) := by
  rw [← Fintype.sum_prod_type' (fun t k => f (rowOf t k))]
  exact (Fintype.sum_equiv rowEquiv (fun p => f (rowOf p.1 p.2)) f (fun p => rfl)).symm

/-- A class's column sum, block by block. -/
theorem seg_blocks (c : Fin 64) (d : Fin 128) :
    seg E T c d = ∑ t : Fin 16, ∑ k : Fin 16384, if (T (rowOf t k)).toInt = (c.val : ℤ) then E (rowOf t k) d else 0 := by
  rw [seg, sum_rows_blocks]

/-- The sum of squares, block by block. -/
theorem ssq_blocks :
    ssq E = ∑ t : Fin 16, ∑ k : Fin 16384, ∑ d : Fin 128, E (rowOf t k) d * E (rowOf t k) d := by
  rw [ssq, sum_rows_blocks]

end Cert.SegMath

end
-- ==== Proof.KiTail.lean ====
/-
  The operations the program runs after its one region, as ONE function of the two arrays the region leaves (the two
  halves' class sums, [2, 64, 128], and the two halves' sums of squares, [2, 1, 1]) and of the labels, in stages: the
  class sums and the sum of squares added over the halves; the counts (a scatter of ones by label); the centres (sums
  over counts plus a small constant); the expanded distance term (sum of squares, minus twice the sums against the
  centres, plus the counts against the centres' squared norms, over the number of rows); the pairwise margin term of
  the centres (upper triangle of the squared hinge of 1.4 minus the distance); and their sum.
-/
import proofs.«424627_j40870908788740_3_alg».proof.Proof.Gen.KernelIdeal.Launch
import Idealize.ShloMosaic.Lib.StableHlo.Run

set_option maxRecDepth 16384

noncomputable section

namespace Cert.KernelIdeal.KTail

open Cert.KernelIdeal
open Idealize.ShloMosaic Idealize.ShloMosaic.TcCoe Idealize.SL.Sem Idealize.ShloMosaic.StableHlo
open Cert.KernelIdeal.Facts₀ Cert.KernelIdeal.Facts

variable {F : FTy → Type} [FloatOps F]

/-- The class sums: the two halves' tables added. -/
def kSums (A2 : FVec F S2x64x128 .f32) : FVec F S64x128 .f32 :=
  Host.reduceAdd A2 (constant S_ .f32 0x00000000#32) reducesTo_S2x64x128_S64x128_d0 h_S_

/-- The sum of squares: the two halves' scalars added. -/
def kSsq (A3 : FVec F S2x1x1 .f32) : FVec F S_ .f32 :=
  Host.reduceAdd A3 (constant S_ .f32 0x00000000#32) reducesTo_S2x1x1_S_d0_1_2 h_S_

/-- The counts: ones scattered into 64 zeros by label. -/
def kCounts (x1 : IVec S262144 32) : FVec F S64 .f32 :=
  Host.scatterAdd scatter_S64_S262144x1_S262144_n_0_0_1 (broadcastInDim S64 ![] bcast_S_S64 (constant S_ .f32 0x00000000#32))
    (broadcastInDim S262144x1 ![0] bcast_S262144_S262144x1_0 x1) (broadcastInDim S262144 ![] bcast_S_S262144 (constant S_ .f32 0x3F800000#32))

/-- The centres of a table of class sums: each row over its count plus the small constant. -/
def kCtr (S : FVec F S64x128 .f32) (x1 : IVec S262144 32) : FVec F S64x128 .f32 :=
  Host.divf S (broadcastInDim S64x128 ![0, 1] bcast_S64x1_S64x128_0_1
    (addf (broadcastInDim S64x1 ![0] bcast_S64_S64x1_0 (kCounts (F := F) x1)) (broadcastInDim S64x1 ![] bcast_S_S64x1 (constant S_ .f32 0x358637BD#32))))

/-- The distance term, expanded, from the class sums `S`, the sum of squares `Q` and the centres `C`. -/
def kL2 (S : FVec F S64x128 .f32) (Q : FVec F S_ .f32) (C : FVec F S64x128 .f32) (x1 : IVec S262144 32) : FVec F S_ .f32 :=
  Host.divf
    (addf
      (subf Q (mulf (constant S_ .f32 0x40000000#32)
        (Host.reduceAdd (Host.reduceAdd (mulf S C) (constant S_ .f32 0x00000000#32) reducesTo_S64x128_S64_d1 h_S_)
          (constant S_ .f32 0x00000000#32) reducesTo_S64_S_d0 h_S_)))
      (Host.reduceAdd (mulf (kCounts (F := F) x1)
          (Host.reduceAdd (mulf C C) (constant S_ .f32 0x00000000#32) reducesTo_S64x128_S64_d1 h_S_))
        (constant S_ .f32 0x00000000#32) reducesTo_S64_S_d0 h_S_))
    (constant S_ .f32 0x48800000#32)

/-- The squared hinge of the pairwise distances of the centres: for each pair of classes, (max (1.4 - sqrt (squared
    distance + small constant)) 0) squared. -/
def kHinge (C : FVec F S64x128 .f32) : FVec F S64x64 .f32 :=
  let dif : FVec F S64x64x128 .f32 :=
    subf (broadcastInDim S64x64x128 ![0, 1, 2] bcast_S64x1x128_S64x64x128_0_1_2 (broadcastInDim S64x1x128 ![0, 2] bcast_S64x128_S64x1x128_0_2 C))
      (broadcastInDim S64x64x128 ![0, 1, 2] bcast_S1x64x128_S64x64x128_0_1_2 (broadcastInDim S1x64x128 ![1, 2] bcast_S64x128_S1x64x128_1_2 C))
  let sq : FVec F S64x64 .f32 := Host.reduceAdd (mulf dif dif) (constant S_ .f32 0x00000000#32) reducesTo_S64x64x128_S64x64_d2 h_S_
  let dist : FVec F S64x64 .f32 := Host.sqrt (addf sq (broadcastInDim S64x64 ![] bcast_S_S64x64 (constant S_ .f32 0x358637BD#32)))
  let hinge : FVec F S64x64 .f32 :=
    maximumf (subf (broadcastInDim S64x64 ![] bcast_S_S64x64 (constant S_ .f32 0x3FB33333#32)) dist)
      (broadcastInDim S64x64 ![] bcast_S_S64x64 (constant S_ .f32 0x00000000#32))
  mulf hinge hinge

/-- The margin term of a table of pairwise values: its strict upper triangle summed, over 64, times 63, over 2. -/
def kTri (H : FVec F S64x64 .f32) : FVec F S_ .f32 :=
  let upper : FVec F S64x64 .f32 :=
    select (cmpi .sge (addi (iotaInDim S64x64 32 0) (broadcastInDim S64x64 ![] bcast_S_S64x64 (constantI S_ 32 0#32))) (iotaInDim S64x64 32 1))
      (broadcastInDim S64x64 ![] bcast_S_S64x64 (constant S_ .f32 0x00000000#32)) H
  Host.divf (mulf (Host.divf (Host.reduceAdd upper (constant S_ .f32 0x00000000#32) reducesTo_S64x64_S_d0_1 h_S_) (constant S_ .f32 0x42800000#32))
      (constant S_ .f32 0x427C0000#32)) (constant S_ .f32 0x40000000#32)

/-- The program's result from the two arrays the region leaves and the labels. -/
def kOut (A2 : FVec F S2x64x128 .f32) (A3 : FVec F S2x1x1 .f32) (x1 : IVec S262144 32) : FVec F S_ .f32 :=
  addf (kL2 (kSums A2) (kSsq A3) (kCtr (kSums A2) x1) x1) (kTri (kHinge (kCtr (kSums A2) x1)))

/-- The operations after the region, run from any contents, leave the result buffer at that function of the two
    arrays' and the labels' contents there. -/
theorem tail_eq (W : Valuation τ sig (Elt F)) :
    StableHlo.after (List.flatten [Gen.hostOps1, Gen.hostOps1_1, Gen.hostOps1_2]) W (Proc.devRef .tc main_v44)
      = kOut (F := F) (W (Proc.devRef .tc main_v1_0)) (W (Proc.devRef .tc main_v1_1)) (W (Proc.devRef .tc main_arg1)) := by
  simp only [Gen.hostOps1, Gen.hostOps1_1, Gen.hostOps1_2, List.flatten_cons, List.flatten_nil, List.append_nil, List.cons_append, List.nil_append]
  after_results_simp
  rfl

end Cert.KernelIdeal.KTail

end
-- ==== Proof.KiPieces.lean ====
/-
  What each control case of the body leaves in the two accumulators' staging buffers, read back as the body's stored
  values: at a reset point the accumulated value over the zero it has just stored; at any other point the accumulated
  value over what the buffer held.
-/
import proofs.«424627_j40870908788740_3_alg».proof.Proof.KiFrame
import proofs.«424627_j40870908788740_3_alg».proof.Proof.KPay
import proofs.«424627_j40870908788740_3_alg».proof.Proof.SegBlocks
import proofs.«424627_j40870908788740_3_alg».proof.Proof.KiTail
import Idealize.ShloMosaic.Lib.Pipeline.Value
import Idealize.ShloMosaic.Lib.ValueIdx
import Idealize.ShloMosaic.Lib.Tactic

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

/-! ## What each case leaves in the accumulators, as the body's stored values -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not a reset leaves, in the class-sum accumulator holding `xo2`, the accumulated value of the
    point's blocks over `xo2`. -/
theorem outB2 (c : Dev nD) (i : grid0.Coords) (a2 : Memref sig .tc .vmem S16384x128 .f32) (h2 : a2.IsWhole) (a3 : Memref sig .tc .vmem S1x16384 .i32) (h3 : a3.IsWhole) (a4 : Memref sig .tc .vmem S1x64x128 .f32) (h4 : a4.IsWhole) (a5 : Memref sig .tc .vmem S1x1x1 .f32) (h5 : a5.IsWhole) (hc : ¬cond0_0 i)
    (x0 : Vec F S16384x128 .f32) (x1 : Vec F S1x16384 .i32) (xo2 : Vec F S1x64x128 .f32) (xo3 : Vec F S1x1x1 .f32) :
    out0_B_2 c i a2 h2 a3 h3 a4 h4 a5 h5 hc x0 x1 xo2 xo3 = k0_pay3 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S16384x128) hz2,
    View.ld_unit_zero (S := S1x16384) hz2, View.ld_unit_zero (S := S1x64x128) hz3]

/-- and in the scalar accumulator holding `xo3`, the accumulated sum of squares over `xo3`. -/
theorem outB3 (c : Dev nD) (i : grid0.Coords) (a2 : Memref sig .tc .vmem S16384x128 .f32) (h2 : a2.IsWhole) (a3 : Memref sig .tc .vmem S1x16384 .i32) (h3 : a3.IsWhole) (a4 : Memref sig .tc .vmem S1x64x128 .f32) (h4 : a4.IsWhole) (a5 : Memref sig .tc .vmem S1x1x1 .f32) (h5 : a5.IsWhole) (hc : ¬cond0_0 i)
    (x0 : Vec F S16384x128 .f32) (x1 : Vec F S1x16384 .i32) (xo2 : Vec F S1x64x128 .f32) (xo3 : Vec F S1x1x1 .f32) :
    out0_B_3 c i a2 h2 a3 h3 a4 h4 a5 h5 hc x0 x1 xo2 xo3 = k0_pay4 x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h5.read_unread, View.ld_unit_zero (S := S16384x128) hz2,
    View.ld_unit_zero (S := S1x1x1) hz3]

/-- A reset point stores the zero table, reads it back, and leaves the accumulated value over it. -/
theorem outA2 (c : Dev nD) (i : grid0.Coords) (a2 : Memref sig .tc .vmem S16384x128 .f32) (h2 : a2.IsWhole) (a3 : Memref sig .tc .vmem S1x16384 .i32) (h3 : a3.IsWhole) (a4 : Memref sig .tc .vmem S1x64x128 .f32) (h4 : a4.IsWhole) (a5 : Memref sig .tc .vmem S1x1x1 .f32) (h5 : a5.IsWhole) (hc : cond0_0 i)
    (x0 : Vec F S16384x128 .f32) (x1 : Vec F S1x16384 .i32) :
    out0_A_2 c i a2 h2 a3 h3 a4 h4 a5 h5 hc x0 x1 = k0_pay3 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x128) hz3, View.readCov_unit_zero (S := S1x64x128) _ hz3]
  simp only [View.readAt_eq_ld, h2.read_unread, h3.read_unread, View.ld_unit_zero (S := S16384x128) hz2,
    View.ld_unit_zero (S := S1x16384) hz2]

/-- The same for the scalar accumulator. -/
theorem outA3 (c : Dev nD) (i : grid0.Coords) (a2 : Memref sig .tc .vmem S16384x128 .f32) (h2 : a2.IsWhole) (a3 : Memref sig .tc .vmem S1x16384 .i32) (h3 : a3.IsWhole) (a4 : Memref sig .tc .vmem S1x64x128 .f32) (h4 : a4.IsWhole) (a5 : Memref sig .tc .vmem S1x1x1 .f32) (h5 : a5.IsWhole) (hc : cond0_0 i)
    (x0 : Vec F S16384x128 .f32) (x1 : Vec F S1x16384 .i32) :
    out0_A_3 c i a2 h2 a3 h3 a4 h4 a5 h5 hc x0 x1 = k0_pay4 x0 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, View.ld_unit_zero (S := S16384x128) hz2]

end Pieces

end Cert.KernelIdeal.KValue

end
-- ==== Proof.KiAccum.lean ====
/-
  The accumulation over the extended reals. Block t's contribution to class c, column d is the sum of the block's
  rows whose label is c; its contribution to the scalar is the sum of the block's squares. After point n the class-sum
  accumulator holds the contributions of the points of n's half up to n, added in order from zero, and the scalar
  accumulator likewise: by induction on the point, a reset point starting again from zero.
-/
import proofs.«424627_j40870908788740_3_alg».proof.Proof.KiPieces
import proofs.«424627_j40870908788740_3_alg».proof.Proof.KPay

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open scoped BigOperators

variable (m : (ℓ : Loc nD τ sig) → Buf (Elt Ideal) ℓ)

/-- The block of rows point t reads, -/
abbrev eblk (c : Dev nD) (t : Fin cfg0.N) : Vec Ideal S16384x128 .f32 := iblk m c 0 t
/-- and its block of labels. -/
abbrev tblk (c : Dev nD) (t : Fin cfg0.N) : Vec Ideal S1x16384 .i32 := iblk m c 1 t

/-- Block t's rows labelled cl, column d, summed. -/
def bsum (c : Dev nD) (t : Fin cfg0.N) (cl : Fin 64) (d : Fin 128) : EReal :=
  ∑ k : Fin 16384, if (tblk m c t (ix2 (0 : Fin 1) k)).toInt = (cl.val : ℤ) then eblk m c t (ix2 k d) else 0

/-- Block t's squares, summed. -/
def bsq (c : Dev nD) (t : Fin cfg0.N) : EReal :=
  ∑ k : Fin 16384, ∑ d : Fin 128, eblk m c t (ix2 k d) * eblk m c t (ix2 k d)

/-- The class sums accumulated up to point n within its half of the grid. -/
def acc2 (c : Dev nD) : (n : ℕ) → n < cfg0.N → Fin 64 → Fin 128 → EReal
  | 0, h => fun cl d => 0 + bsum m c ⟨0, h⟩ cl d
  | n + 1, h => fun cl d => (if (n + 1) % 8 = 0 then 0 else acc2 c n (Nat.lt_of_succ_lt h) cl d) + bsum m c ⟨n + 1, h⟩ cl d

/-- The squares accumulated up to point n within its half of the grid. -/
def acc3 (c : Dev nD) : (n : ℕ) → n < cfg0.N → EReal
  | 0, h => 0 + bsq m c ⟨0, h⟩
  | n + 1, h => (if (n + 1) % 8 = 0 then 0 else acc3 c n (Nat.lt_of_succ_lt h)) + bsq m c ⟨n + 1, h⟩

/-- What the accumulators' buffers hold after point n is that. -/
theorem outs_eq (c : Dev nD) : ∀ (n : ℕ) (h : n < cfg0.N),
    (∀ (cl : Fin 64) (d : Fin 128), (outsAt0 m c n h).1 (ix3 (0 : Fin 1) cl d) = acc2 m c n h cl d)
      ∧ (outsAt0 m c n h).2 (ix3 (0 : Fin 1) (0 : Fin 1) (0 : Fin 1)) = acc3 m c n h
  | 0, h => by
    rw [outsAt0_A m c ⟨0, h⟩ rfl]
    dsimp only
    rw [outA2, outA3]
    refine ⟨fun cl d => ?_, ?_⟩
    · rw [KPay.pay3_apply, KPay.pay1_apply]; rfl
    · rw [KPay.pay4_apply, KPay.pay2_apply]; rfl
  | n + 1, h => by
    by_cases h0 : (n + 1) % 8 = 0
    · rw [outsAt0_A m c ⟨n + 1, h⟩ h0]
      dsimp only
      rw [outA2, outA3]
      refine ⟨fun cl d => ?_, ?_⟩
      · rw [KPay.pay3_apply, KPay.pay1_apply]
        show _ = (if (n + 1) % 8 = 0 then 0 else acc2 m c n _ cl d) + bsum m c ⟨n + 1, h⟩ cl d
        rw [if_pos h0]; rfl
      · rw [KPay.pay4_apply, KPay.pay2_apply]
        show _ = (if (n + 1) % 8 = 0 then 0 else acc3 m c n _) + bsq m c ⟨n + 1, h⟩
        rw [if_pos h0]; rfl
    · obtain ⟨ih2, ih3⟩ := outs_eq c n (Nat.lt_of_succ_lt h)
      rw [outsAt0_B m c ⟨n + 1, h⟩ h0]
      dsimp only
      rw [outB2, outB3]
      refine ⟨fun cl d => ?_, ?_⟩
      · rw [KPay.pay3_apply]
        show (outsAt0 m c n _).1 (ix3 (0 : Fin 1) cl d) + _ = (if (n + 1) % 8 = 0 then 0 else acc2 m c n _ cl d) + bsum m c ⟨n + 1, h⟩ cl d
        rw [if_neg h0, ih2 cl d]; rfl
      · rw [KPay.pay4_apply]
        show (outsAt0 m c n _).2 (ix3 (0 : Fin 1) (0 : Fin 1) (0 : Fin 1)) + _ = (if (n + 1) % 8 = 0 then 0 else acc3 m c n _) + bsq m c ⟨n + 1, h⟩
        rw [if_neg h0, ih3]; rfl

end Cert.KernelIdeal.KValue

end
-- ==== Proof.KiSum.lean ====
/-
  The two halves of the grid together: the class sums accumulated by the end of the first half (after point 7) plus
  those accumulated by the end of the second (after point 15) are the sum of all sixteen blocks' contributions; the
  same for the squares.
-/
import proofs.«424627_j40870908788740_3_alg».proof.Proof.KiAccum

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open scoped BigOperators

/-- A running sum over sixteen points that starts again from zero at point 8: its value after point 7 plus its value
    after point 15 is the sum of all sixteen contributions. -/
private theorem two_halves {M : Type*} [AddCommMonoid M] {N : ℕ} (hN : N = 16) (b : Fin N → M)
    (A : (n : ℕ) → n < N → M)
    (h0 : ∀ h, A 0 h = 0 + b ⟨0, h⟩)
    (hs : ∀ n h, A (n + 1) h = (if (n + 1) % 8 = 0 then 0 else A n (Nat.lt_of_succ_lt h)) + b ⟨n + 1, h⟩)
    (h7 : 7 < N) (h15 : 15 < N) (hlt : ∀ t : Fin 16, t.val < N) :
    A 7 h7 + A 15 h15 = ∑ t : Fin 16, b ⟨t.val, hlt t⟩ := by
  subst hN
  -- the contribution of point i, zero past the grid
  let g : ℕ → M := fun i => if hi : i < 16 then b ⟨i, hi⟩ else 0
  have hg : ∀ i (hi : i < 16), b ⟨i, hi⟩ = g i := fun i hi => by simp only [g, dif_pos hi]
  -- within the first half the running sum is the sum from point 0
  have hA : ∀ n (h : n < 16), n < 8 → A n h = ∑ i ∈ Finset.range (n + 1), g i := by
    intro n
    induction n with
    | zero =>
      intro h _
      rw [h0, zero_add, hg, Finset.sum_range_one]
    | succ n ih =>
      intro h h8
      rw [hs, if_neg (by omega), ih (Nat.lt_of_succ_lt h) (by omega), hg, ← Finset.sum_range_succ]
  -- within the second half it is the sum from point 8
  have hB : ∀ n (h : n < 16), 8 ≤ n → A n h = ∑ i ∈ Finset.Ico 8 (n + 1), g i := by
    intro n
    induction n with
    | zero => intro h h8; omega
    | succ n ih =>
      intro h h8
      by_cases h8' : n + 1 = 8
      · have hn : n = 7 := by omega
        subst hn
        rw [hs, if_pos (by decide), zero_add, hg]
        simp
      · rw [hs, if_neg (by omega), ih (Nat.lt_of_succ_lt h) (by omega), hg,
          ← Finset.sum_Ico_succ_top (by omega : 8 ≤ n + 1)]
  rw [hA 7 h7 (by decide), hB 15 h15 (by decide), Finset.sum_range_add_sum_Ico g (by decide : 8 ≤ 16),
    Finset.sum_range]
  exact Finset.sum_congr rfl fun t _ => (hg t.val t.isLt).symm

variable (m : (ℓ : Loc nD τ sig) → Buf (Elt Ideal) ℓ)

theorem lt16 (t : Fin 16) : t.val < cfg0.N := by rw [show cfg0.N = 16 from N_0]; exact t.isLt
theorem lt_7 : 7 < cfg0.N := by rw [show cfg0.N = 16 from N_0]; decide
theorem lt_15 : 15 < cfg0.N := by rw [show cfg0.N = 16 from N_0]; decide

/-- The class sums of the two halves together are the sum over all sixteen blocks. -/
theorem halves2 (c : Dev nD) (cl : Fin 64) (d : Fin 128) :
    acc2 m c 7 lt_7 cl d + acc2 m c 15 lt_15 cl d = ∑ t : Fin 16, bsum m c ⟨t.val, lt16 t⟩ cl d := by
  exact two_halves N_0 (fun t => bsum m c t cl d) (fun n h => acc2 m c n h cl d) (fun _ => rfl) (fun _ _ => rfl)
    lt_7 lt_15 lt16

/-- The squares of the two halves together are the sum over all sixteen blocks. -/
theorem halves3 (c : Dev nD) :
    acc3 m c 7 lt_7 + acc3 m c 15 lt_15 = ∑ t : Fin 16, bsq m c ⟨t.val, lt16 t⟩ := by
  exact two_halves N_0 (fun t => bsq m c t) (fun n h => acc3 m c n h) (fun _ => rfl) (fun _ _ => rfl)
    lt_7 lt_15 lt16

end Cert.KernelIdeal.KValue

end
-- ==== Proof.KiFinal.lean ====
/-
  The two accumulator arrays after the run. Each half of the grid (points 0–7, points 8–15) accumulates into its own
  block — row p of the [2, 64, 128] table, entry p of the [2, 1, 1] vector — which the pipeline writes back once,
  after the half's last point. So row p of each array ends at what the accumulator held after point 8 p + 7.
-/
import proofs.«424627_j40870908788740_3_alg».proof.Proof.KiFrame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.KFinal

open Cert.KernelIdeal Cert.KernelIdeal.Gen Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

variable {F : FTy → Type} [FloatOps F]
variable (m : (ℓ : Loc nD τ sig) → Buf (Elt F) ℓ)

/-- The last point of half `p`. -/
theorem last_lt (p : Fin 2) : 8 * p.val + 7 < cfg0.N := by
  rw [show cfg0.N = 16 from N_0]; have := p.isLt; omega

/-- The accumulators after a point do not depend on how the point is written. -/
private theorem outsAt0_congr (c : Dev nD) {n n' : ℕ} (e : n = n') (h : n < cfg0.N) (h' : n' < cfg0.N) :
    outsAt0 m c n h = outsAt0 m c n' h' := by
  subst e; rfl

private theorem row_lt2 (j : S2x64x128.Idx) : 8 * (j 0).val + 7 < cfg0.N := by
  rw [show cfg0.N = 16 from N_0]; have : (j 0).val < 2 := (j 0).isLt; omega

/-- The class-sum array as the run leaves it: row `p` the accumulator after point `8 p + 7`. -/
private def G2 (c : Dev nD) : S2x64x128.Idx → Elt F .f32 := fun j =>
  (outsAt0 m c (8 * (j 0).val + 7) (row_lt2 j)).1 (ix3 (0 : Fin 1) (j 1) (j 2))

/-- An entry of it, at a point and an index of the block given by their values. -/
private theorem G2_at (c : Dev nD) (j : S2x64x128.Idx) (n : ℕ) (hn : n < cfg0.N) (e : 8 * (j 0).val + 7 = n)
    (z : S1x64x128.Idx) (hz1 : (z 1).val = (j 1).val) (hz2 : (z 2).val = (j 2).val) :
    G2 m c j = (outsAt0 m c n hn).1 z := by
  unfold G2
  rw [outsAt0_congr m c e _ hn]
  refine congrArg _ ?_
  funext a
  match a with
  | ⟨0, _⟩ => exact Fin.ext (by show (0 : Fin 1).val = (z 0).val; have : (z 0).val < 1 := (z 0).isLt; omega)
  | ⟨1, _⟩ => exact Fin.ext hz1.symm
  | ⟨2, _⟩ => exact Fin.ext hz2.symm

/-- A flushing point is point 7 or point 15. -/
private theorem flush_pt (t : Fin cfg0.N) (h7 : t.val % 8 = 7) : t = t0_7 ∨ t = t0_15 := by
  have hN : cfg0.N = 16 := N_0
  have := t.isLt
  rcases (show t.val = 7 ∨ t.val = 15 by omega) with h | h
  · exact Or.inl (Fin.ext h)
  · exact Or.inr (Fin.ext h)

/-- What a flushing point writes back of the class sums is its block of that array. -/
private theorem hG2 (c : Dev nD) (t : Fin cfg0.N) (hf : (cfg0.win 2).flush t = true) :
    (dats m 0 c).flushed 2 t = ((cfg0.win 2).blk t).view.read (Elt F) (G2 m c) := by
  rcases flush_pt t ((flush0_2 t).mp hf) with rfl | rfl
  · show (cfg0.win 2).cut (grid0.coords t0_7) ((dats m 0 c).after 2 t0_7) = _
    rw [after0_2]
    funext y
    rw [View.read_apply, cast_eq]
    have hi : win0_2.index t0_7 = ![0, 0, 0] := by decide +kernel
    have y0 : (y 0).val < 1 := (y 0).isLt
    refine (G2_at m c _ 7 _ ?_ ((cfg0.win 2).xinj (grid0.coords t0_7) y) ?_ ?_).symm
    · show 8 * (win0_2.index t0_7 (0 : Fin 3) * 1 + 1 * (y 0).val) + 7 = 7
      rw [hi]; simp; omega
    · show (y 1).val = win0_2.index t0_7 (1 : Fin 3) * 64 + 1 * (y 1).val
      rw [hi]; simp
    · show (y 2).val = win0_2.index t0_7 (2 : Fin 3) * 128 + 1 * (y 2).val
      rw [hi]; simp
  · show (cfg0.win 2).cut (grid0.coords t0_15) ((dats m 0 c).after 2 t0_15) = _
    rw [after0_2]
    funext y
    rw [View.read_apply, cast_eq]
    have hi : win0_2.index t0_15 = ![1, 0, 0] := by decide +kernel
    have y0 : (y 0).val < 1 := (y 0).isLt
    refine (G2_at m c _ 15 _ ?_ ((cfg0.win 2).xinj (grid0.coords t0_15) y) ?_ ?_).symm
    · show 8 * (win0_2.index t0_15 (0 : Fin 3) * 1 + 1 * (y 0).val) + 7 = 15
      rw [hi]; simp; omega
    · show (y 1).val = win0_2.index t0_15 (1 : Fin 3) * 64 + 1 * (y 1).val
      rw [hi]; simp
    · show (y 2).val = win0_2.index t0_15 (2 : Fin 3) * 128 + 1 * (y 2).val
      rw [hi]; simp

/-- Every index of the class-sum array is in the block of point 7 (row 0) or of point 15 (row 1). -/
private theorem cover2 (i : S2x64x128.Idx) :
    ∃ t : Fin cfg0.N, (cfg0.win 2).flush t = true ∧ i ∈ ((cfg0.win 2).blk t).view.set := by
  have h0 : (i 0).val < 2 := (i 0).isLt
  have h1 : (i 1).val < 64 := (i 1).isLt
  have h2 : (i 2).val < 128 := (i 2).isLt
  by_cases hp : (i 0).val = 0
  · refine ⟨t0_7, (flush0_2 t0_7).mpr rfl, ?_⟩
    show i ∈ ((View.whole main_v1_0).slice (win0_2.rect t0_7)).set
    rw [View.set_slice_whole, Rect.mem_set_unit]
    have hi : win0_2.index t0_7 = ![0, 0, 0] := by decide +kernel
    intro a
    match a with
    | ⟨0, _⟩ => show win0_2.index t0_7 (0 : Fin 3) * 1 ≤ (i 0).val ∧ (i 0).val < win0_2.index t0_7 (0 : Fin 3) * 1 + 1
                rw [hi]; simp; omega
    | ⟨1, _⟩ => show win0_2.index t0_7 (1 : Fin 3) * 64 ≤ (i 1).val ∧ (i 1).val < win0_2.index t0_7 (1 : Fin 3) * 64 + 64
                rw [hi]; simp; omega
    | ⟨2, _⟩ => show win0_2.index t0_7 (2 : Fin 3) * 128 ≤ (i 2).val ∧ (i 2).val < win0_2.index t0_7 (2 : Fin 3) * 128 + 128
                rw [hi]; simp; omega
  · refine ⟨t0_15, (flush0_2 t0_15).mpr rfl, ?_⟩
    show i ∈ ((View.whole main_v1_0).slice (win0_2.rect t0_15)).set
    rw [View.set_slice_whole, Rect.mem_set_unit]
    have hi : win0_2.index t0_15 = ![1, 0, 0] := by decide +kernel
    intro a
    match a with
    | ⟨0, _⟩ => show win0_2.index t0_15 (0 : Fin 3) * 1 ≤ (i 0).val ∧ (i 0).val < win0_2.index t0_15 (0 : Fin 3) * 1 + 1
                rw [hi]; simp; omega
    | ⟨1, _⟩ => show win0_2.index t0_15 (1 : Fin 3) * 64 ≤ (i 1).val ∧ (i 1).val < win0_2.index t0_15 (1 : Fin 3) * 64 + 64
                rw [hi]; simp; omega
    | ⟨2, _⟩ => show win0_2.index t0_15 (2 : Fin 3) * 128 ≤ (i 2).val ∧ (i 2).val < win0_2.index t0_15 (2 : Fin 3) * 128 + 128
                rw [hi]; simp; omega

/-- The class-sum array, row p: the class-sum accumulator after the half's last point. -/
theorem final2 (c : Dev nD) (p : Fin 2) (cl : Fin 64) (d : Fin 128) :
    ((dats m 0 c).arrAt 2 cfg0.N : S2x64x128.Idx → Elt F .f32) (ix3 p cl d)
      = (outsAt0 m c (8 * p.val + 7) (last_lt p)).1 (ix3 (0 : Fin 1) cl d) := by
  have h := congrFun ((dats m 0 c).arrAt_eq_of_cover 2 (G2 m c) (hG2 m c) cover2) (ix3 p cl d)
  exact h.trans (G2_at m c (ix3 p cl d) (8 * p.val + 7) (last_lt p) rfl (ix3 (0 : Fin 1) cl d) rfl rfl)

private theorem row_lt3 (j : S2x1x1.Idx) : 8 * (j 0).val + 7 < cfg0.N := by
  rw [show cfg0.N = 16 from N_0]; have : (j 0).val < 2 := (j 0).isLt; omega

/-- The sum-of-squares array as the run leaves it: entry `p` the scalar accumulator after point `8 p + 7`. -/
private def G3 (c : Dev nD) : S2x1x1.Idx → Elt F .f32 := fun j =>
  (outsAt0 m c (8 * (j 0).val + 7) (row_lt3 j)).2 (ix3 (0 : Fin 1) (0 : Fin 1) (0 : Fin 1))

/-- An entry of it, at a point given by its value and any index of the one-entry block. -/
private theorem G3_at (c : Dev nD) (j : S2x1x1.Idx) (n : ℕ) (hn : n < cfg0.N) (e : 8 * (j 0).val + 7 = n)
    (z : S1x1x1.Idx) : G3 m c j = (outsAt0 m c n hn).2 z := by
  unfold G3
  rw [outsAt0_congr m c e _ hn]
  refine congrArg _ ?_
  funext a
  match a with
  | ⟨0, _⟩ => exact Fin.ext (by show (0 : Fin 1).val = (z 0).val; have : (z 0).val < 1 := (z 0).isLt; omega)
  | ⟨1, _⟩ => exact Fin.ext (by show (0 : Fin 1).val = (z 1).val; have : (z 1).val < 1 := (z 1).isLt; omega)
  | ⟨2, _⟩ => exact Fin.ext (by show (0 : Fin 1).val = (z 2).val; have : (z 2).val < 1 := (z 2).isLt; omega)

/-- What a flushing point writes back of the sum of squares is its block of that array. -/
private theorem hG3 (c : Dev nD) (t : Fin cfg0.N) (hf : (cfg0.win 3).flush t = true) :
    (dats m 0 c).flushed 3 t = ((cfg0.win 3).blk t).view.read (Elt F) (G3 m c) := by
  rcases flush_pt t ((flush0_3 t).mp hf) with rfl | rfl
  · show (cfg0.win 3).cut (grid0.coords t0_7) ((dats m 0 c).after 3 t0_7) = _
    rw [after0_3]
    funext y
    rw [View.read_apply, cast_eq]
    have hi : win0_3.index t0_7 = ![0, 0, 0] := by decide +kernel
    have y0 : (y 0).val < 1 := (y 0).isLt
    refine (G3_at m c _ 7 _ ?_ ((cfg0.win 3).xinj (grid0.coords t0_7) y)).symm
    show 8 * (win0_3.index t0_7 (0 : Fin 3) * 1 + 1 * (y 0).val) + 7 = 7
    rw [hi]; simp; omega
  · show (cfg0.win 3).cut (grid0.coords t0_15) ((dats m 0 c).after 3 t0_15) = _
    rw [after0_3]
    funext y
    rw [View.read_apply, cast_eq]
    have hi : win0_3.index t0_15 = ![1, 0, 0] := by decide +kernel
    have y0 : (y 0).val < 1 := (y 0).isLt
    refine (G3_at m c _ 15 _ ?_ ((cfg0.win 3).xinj (grid0.coords t0_15) y)).symm
    show 8 * (win0_3.index t0_15 (0 : Fin 3) * 1 + 1 * (y 0).val) + 7 = 15
    rw [hi]; simp; omega

/-- Every index of the sum-of-squares array is in the block of point 7 (entry 0) or of point 15 (entry 1). -/
private theorem cover3 (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  by_cases hp : (i 0).val = 0
  · refine ⟨t0_7, (flush0_3 t0_7).mpr rfl, ?_⟩
    show i ∈ ((View.whole main_v1_1).slice (win0_3.rect t0_7)).set
    rw [View.set_slice_whole, Rect.mem_set_unit]
    have hi : win0_3.index t0_7 = ![0, 0, 0] := by decide +kernel
    intro a
    match a with
    | ⟨0, _⟩ => show win0_3.index t0_7 (0 : Fin 3) * 1 ≤ (i 0).val ∧ (i 0).val < win0_3.index t0_7 (0 : Fin 3) * 1 + 1
                rw [hi]; simp; omega
    | ⟨1, _⟩ => show win0_3.index t0_7 (1 : Fin 3) * 1 ≤ (i 1).val ∧ (i 1).val < win0_3.index t0_7 (1 : Fin 3) * 1 + 1
                rw [hi]; simp; omega
    | ⟨2, _⟩ => show win0_3.index t0_7 (2 : Fin 3) * 1 ≤ (i 2).val ∧ (i 2).val < win0_3.index t0_7 (2 : Fin 3) * 1 + 1
                rw [hi]; simp; omega
  · refine ⟨t0_15, (flush0_3 t0_15).mpr rfl, ?_⟩
    show i ∈ ((View.whole main_v1_1).slice (win0_3.rect t0_15)).set
    rw [View.set_slice_whole, Rect.mem_set_unit]
    have hi : win0_3.index t0_15 = ![1, 0, 0] := by decide +kernel
    intro a
    match a with
    | ⟨0, _⟩ => show win0_3.index t0_15 (0 : Fin 3) * 1 ≤ (i 0).val ∧ (i 0).val < win0_3.index t0_15 (0 : Fin 3) * 1 + 1
                rw [hi]; simp; omega
    | ⟨1, _⟩ => show win0_3.index t0_15 (1 : Fin 3) * 1 ≤ (i 1).val ∧ (i 1).val < win0_3.index t0_15 (1 : Fin 3) * 1 + 1
                rw [hi]; simp; omega
    | ⟨2, _⟩ => show win0_3.index t0_15 (2 : Fin 3) * 1 ≤ (i 2).val ∧ (i 2).val < win0_3.index t0_15 (2 : Fin 3) * 1 + 1
                rw [hi]; simp; omega

/-- The sum-of-squares array, entry p: the scalar accumulator after the half's last point. -/
theorem final3 (c : Dev nD) (p : Fin 2) :
    ((dats m 0 c).arrAt 3 cfg0.N : S2x1x1.Idx → Elt F .f32) (ix3 p (0 : Fin 1) (0 : Fin 1))
      = (outsAt0 m c (8 * p.val + 7) (last_lt p)).2 (ix3 (0 : Fin 1) (0 : Fin 1) (0 : Fin 1)) := by
  have h := congrFun ((dats m 0 c).arrAt_eq_of_cover 3 (G3 m c) (hG3 m c) cover3) (ix3 p (0 : Fin 1) (0 : Fin 1))
  exact h.trans (G3_at m c (ix3 p (0 : Fin 1) (0 : Fin 1)) (8 * p.val + 7) (last_lt p) rfl _)

end Cert.KernelIdeal.KFinal

end
-- ==== Proof.KiBlocks.lean ====
/-
  The two input windows' blocks, read at an index off the arguments as launched. Grid point t (of 16) fetches rows
  16384 t … 16384 t + 16383 of the embeddings, and the same stretch of the labels (staged as a row [1, 262144], the
  labels reshaped): entry (k, d) of the first block is row 16384 t + k, column d; entry (0, k) of the second is label
  16384 t + k.
-/
import proofs.«424627_j40870908788740_3_alg».proof.Proof.KiFrame
import proofs.«424627_j40870908788740_3_alg».proof.Proof.SegBlocks
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.KBlocks

open Cert.KernelIdeal Cert.KernelIdeal.Gen Cert.KernelIdeal.Hand
open Idealize.ShloMosaic Idealize.ShloMosaic.TcCoe Idealize.SL.Sem Idealize.ShloMosaic.ValueIdx Idealize.ShloMosaic.Tactic
open Idealize.ShloMosaic.Pipeline (Dat)
open scoped BigOperators

variable {F : FTy → Type} [FloatOps F]
variable (m : (ℓ : Loc nD τ sig) → Buf (Elt F) ℓ)

/-- Grid point number `t`. -/
def pt (t : Fin 16) : Fin cfg0.N := ⟨t.val, by rw [show cfg0.N = 16 from N_0]; exact t.isLt⟩

/-- The two input windows' block indices at grid point t: block t along the rows, resp. along the row's entries. -/
private theorem index_pt : ∀ t : Fin cfg0.N,
    win0_0.index t 0 = t.val ∧ win0_0.index t 1 = 0 ∧ win0_1.index t 0 = 0 ∧ win0_1.index t 1 = t.val :=
  (by decide +kernel : ∀ t : Fin grid0.N,
    win0_0.index t 0 = t.val ∧ win0_0.index t 1 = 0 ∧ win0_1.index t 0 = 0 ∧ win0_1.index t 1 = t.val)

/-- The first window's block at point t, entry (k, d): row 16384 t + k, column d of the embeddings as launched. -/
theorem iblk0_apply (c : Dev nD) (t : Fin 16) (k : Fin 16384) (d : Fin 128) :
    (iblk m c 0 (pt t) : Vec F S16384x128 .f32) (ix2 k d)
      = m ((c : Thread nD τ).loc main_arg0) (ix2 (Cert.SegMath.rowOf t k) d) := by
  have hi := index_pt (pt t)
  unfold iblk
  rw [View.read_apply]
  show V m c main_arg0 (((cfg0.win 0).blk (pt t)).view.emb (ix2 k d)) = _
  rw [V_main_arg0]
  refine congrArg (m ((c : Thread nD τ).loc main_arg0)) (funext fun a => Fin.ext ?_)
  match a with
  | ⟨0, _⟩ =>
    show win0_0.index (pt t) 0 * 16384 + 1 * k.val = t.val * 16384 + k.val
    rw [hi.1]; show t.val * 16384 + 1 * k.val = _; omega
  | ⟨1, _⟩ =>
    show win0_0.index (pt t) 1 * 128 + 1 * d.val = d.val
    rw [hi.2.1]; omega

/-- The second window's block at point t, entry (0, k): label 16384 t + k as launched. -/
theorem iblk1_apply (c : Dev nD) (t : Fin 16) (k : Fin 16384) :
    (iblk m c 1 (pt t) : Vec F S1x16384 .i32) (ix2 (0 : Fin 1) k)
      = m ((c : Thread nD τ).loc main_arg1) (ix1 (Cert.SegMath.rowOf t k)) := by
  have hi := index_pt (pt t)
  have e : (V m c main_v0 : S1x262144.Idx → Elt F .i32)
      = shapeCast S1x262144 (m ((c : Thread nD τ).loc main_arg1)) Gen.shapeCasts_S262144_S1x262144 := by
    show StableHlo.after hostOps0 (fun b => m (c, b)) (Proc.devRef .tc main_v0) = _
    after_results
    rfl
  have hemb : (((cfg0.win 1).blk (pt t)).view.emb (ix2 (0 : Fin 1) k) : S1x262144.Idx)
      = ix2 (0 : Fin 1) (Cert.SegMath.rowOf t k) := by
    refine funext fun a => Fin.ext ?_
    match a with
    | ⟨0, _⟩ =>
      show win0_1.index (pt t) 0 * 1 + 1 * 0 = 0
      rw [hi.2.2.1]
    | ⟨1, _⟩ =>
      show win0_1.index (pt t) 1 * 16384 + 1 * k.val = t.val * 16384 + k.val
      rw [hi.2.2.2]; show t.val * 16384 + 1 * k.val = _; omega
  unfold iblk
  rw [View.read_apply]
  show V m c main_v0 (((cfg0.win 1).blk (pt t)).view.emb (ix2 (0 : Fin 1) k)) = _
  rw [e, hemb]
  exact shapeCast_a_1a_apply _ _ (0 : Fin 1) (Cert.SegMath.rowOf t k)

end Cert.KernelIdeal.KBlocks

end
-- ==== Proof.KiRun.lean ====
/-
  The idealized kernel program's run, read. The result buffer ends at the tail function of the two arrays the region
  leaves and of the labels; both arguments end as launched. And the two arrays are what the law needs: the two halves'
  class sums add up, class by class and column by column, to the sum of the rows carrying that label, and the two
  halves' scalars add up to the sum of all squares — each half accumulates its eight blocks in order, the sixteen
  blocks are the rows in order, and sums over the extended reals may be regrouped freely.
-/
import proofs.«424627_j40870908788740_3_alg».proof.Proof.KiSum
import proofs.«424627_j40870908788740_3_alg».proof.Proof.KiFinal
import proofs.«424627_j40870908788740_3_alg».proof.Proof.KiBlocks
import proofs.«424627_j40870908788740_3_alg».proof.Proof.KiTail
import proofs.«424627_j40870908788740_3_alg».proof.Proof.SegBlocks

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.SegMath
open scoped BigOperators

variable (m : (ℓ : Loc nD τ sig) → Buf (Elt Ideal) ℓ) (ρ : Dev nD → PrngReg)

/-- The class-sum array after the run, -/
abbrev arr2 (c : Dev nD) : FVec Ideal S2x64x128 .f32 := (dats m 0 c).arrAt 2 cfg0.N
/-- and the sum-of-squares array. -/
abbrev arr3 (c : Dev nD) : FVec Ideal S2x1x1 .f32 := (dats m 0 c).arrAt 3 cfg0.N

/-- The embeddings as launched, by row and column, -/
abbrev rows (c : Dev nD) : Fin 262144 → Fin 128 → EReal := fun i d => (m ((c : Thread nD τ).loc main_arg0) : FVec Ideal S262144x128 .f32) (ix2 i d)
/-- and the labels as launched, by row. -/
abbrev labels (c : Dev nD) : Fin 262144 → BitVec 32 := fun i => (m ((c : Thread nD τ).loc main_arg1) : IVec S262144 32) (ix1 i)

set_option backward.isDefEq.respectTransparency.types false in
/-- The run: the result at the tail function of the two arrays and the labels; the arguments unchanged. -/
theorem run : θ_run defs (onTc (τ := τ) (main (F := Ideal))) ⟨m, fun _ => 0, ρ⟩ fun r => ∀ c : Dev nD,
      r.2.mem ((c : Thread nD τ).loc main_v44) = KTail.kOut (F := Ideal) (arr2 m c) (arr3 m c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v44 (Pipeline.mem_restRefs_of main_v44 (by decide) (by decide))).trans ?_
    unfold Pipeline.afterTail₀
    refine (KTail.tail_eq (F := Ideal) _).trans ?_
    have e2 := Pipeline.withArrays_arr (τ := τ) spec0 launch0.win.arr_inj c (V0 m c) (fun w => (dats m 0 c).arrAt w cfg0.N) 2
    have e3 := Pipeline.withArrays_arr (τ := τ) spec0 launch0.win.arr_inj c (V0 m c) (fun w => (dats m 0 c).arrAt w cfg0.N) 3
    have e1 := Pipeline.withArrays_of_ne (τ := τ) spec0 c (V0 m c) (fun w => (dats m 0 c).arrAt w cfg0.N) main_arg1
      (by decide : ∀ w, Pipeline.arrRef spec0 w ≠ main_arg1)
    have e1' : V0 m c (Proc.devRef .tc main_arg1) = m ((c : Thread nD τ).loc main_arg1) := V_main_arg1 m c
    exact congrArg₂ (fun A B => KTail.kOut (F := Ideal) A B _) e2 e3 |>.trans (by rw [e1, e1'])
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

/-- Block t's class sums over the rows as launched. -/
theorem bsum_rows (c : Dev nD) (t : Fin 16) (cl : Fin 64) (d : Fin 128) :
    bsum m c ⟨t.val, lt16 t⟩ cl d
      = ∑ k : Fin 16384, if (labels m c (rowOf t k)).toInt = (cl.val : ℤ) then rows m c (rowOf t k) d else 0 := by
  unfold bsum
  refine Finset.sum_congr rfl fun k _ => ?_
  have e0 := KBlocks.iblk0_apply m c t k d
  have e1 := KBlocks.iblk1_apply m c t k
  show (if (tblk m c (KBlocks.pt t) (ix2 (0 : Fin 1) k)).toInt = (cl.val : ℤ) then eblk m c (KBlocks.pt t) (ix2 k d) else 0) = _
  rw [show tblk m c (KBlocks.pt t) (ix2 (0 : Fin 1) k) = _ from e1, show eblk m c (KBlocks.pt t) (ix2 k d) = _ from e0]

/-- Block t's squares over the rows as launched. -/
theorem bsq_rows (c : Dev nD) (t : Fin 16) :
    bsq m c ⟨t.val, lt16 t⟩ = ∑ k : Fin 16384, ∑ d : Fin 128, rows m c (rowOf t k) d * rows m c (rowOf t k) d := by
  unfold bsq
  refine Finset.sum_congr rfl fun k _ => Finset.sum_congr rfl fun d _ => ?_
  have e0 := KBlocks.iblk0_apply m c t k d
  show eblk m c (KBlocks.pt t) (ix2 k d) * eblk m c (KBlocks.pt t) (ix2 k d) = _
  rw [show eblk m c (KBlocks.pt t) (ix2 k d) = _ from e0]

/-- The two halves' class sums add up to the per-class column sums of the rows as launched. -/
theorem arr2_sum (c : Dev nD) (cl : Fin 64) (d : Fin 128) :
    arr2 m c (ix3 (0 : Fin 2) cl d) + arr2 m c (ix3 (1 : Fin 2) cl d) = seg (rows m c) (labels m c) cl d := by
  rw [seg_blocks]
  have f0 := KFinal.final2 m c (0 : Fin 2) cl d
  have f1 := KFinal.final2 m c (1 : Fin 2) cl d
  have o0 := (outs_eq m c 7 lt_7).1 cl d
  have o1 := (outs_eq m c 15 lt_15).1 cl d
  have hh := halves2 m c cl d
  calc arr2 m c (ix3 (0 : Fin 2) cl d) + arr2 m c (ix3 (1 : Fin 2) cl d)
      = acc2 m c 7 lt_7 cl d + acc2 m c 15 lt_15 cl d := by rw [← o0, ← o1]; exact congrArg₂ (· + ·) f0 f1
    _ = ∑ t : Fin 16, bsum m c ⟨t.val, lt16 t⟩ cl d := hh
    _ = _ := Finset.sum_congr rfl fun t _ => bsum_rows m c t cl d

/-- The two halves' scalars add up to the sum of the squares of the rows as launched. -/
theorem arr3_sum (c : Dev nD) :
    arr3 m c (ix3 (0 : Fin 2) (0 : Fin 1) (0 : Fin 1)) + arr3 m c (ix3 (1 : Fin 2) (0 : Fin 1) (0 : Fin 1)) = ssq (rows m c) := by
  rw [ssq_blocks]
  have f0 := KFinal.final3 m c (0 : Fin 2)
  have f1 := KFinal.final3 m c (1 : Fin 2)
  have o0 := (outs_eq m c 7 lt_7).2
  have o1 := (outs_eq m c 15 lt_15).2
  have hh := halves3 m c
  calc arr3 m c (ix3 (0 : Fin 2) (0 : Fin 1) (0 : Fin 1)) + arr3 m c (ix3 (1 : Fin 2) (0 : Fin 1) (0 : Fin 1))
      = acc3 m c 7 lt_7 + acc3 m c 15 lt_15 := by rw [← o0, ← o1]; exact congrArg₂ (· + ·) f0 f1
    _ = ∑ t : Fin 16, bsq m c ⟨t.val, lt16 t⟩ := hh
    _ = _ := Finset.sum_congr rfl fun t _ => bsq_rows m c t

end Cert.KernelIdeal.KValue

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.RefRead.lean ====
/-
  The reference's stages that depend on the labels, read at an index over the extended reals: the counts, the
  per-class column sums, the centres, and the sum over the rows of the squared distance to the row's class centre.
-/
import proofs.«424627_j40870908788740_3_alg».proof.Proof.Gen.ReferenceIdeal.Read
import proofs.«424627_j40870908788740_3_alg».proof.Proof.LibScatterRows
import proofs.«424627_j40870908788740_3_alg».proof.Proof.LibGatherRows
import proofs.«424627_j40870908788740_3_alg».proof.Proof.SegMath
import Idealize.ShloMosaic.Lib.ValueIdx

noncomputable section

namespace Cert.ReferenceIdeal.RefRead

open Cert.ReferenceIdeal Cert.ReferenceIdeal.Gen Cert.ReferenceIdeal.Read
open Idealize.ShloMosaic Idealize.ShloMosaic.ValueIdx Cert.SegMath
open scoped BigOperators

/-- The embeddings as a function of row and column. -/
def rowsOf (x0 : FVec Ideal S262144x128 .f32) : Fin 262144 → Fin 128 → EReal := fun i d => x0 (ix2 i d)
/-- The labels as a function of the row. -/
def labelsOf (x1 : IVec S262144 32) : Fin 262144 → BitVec 32 := fun i => x1 (ix1 i)

/-- The pattern of the float one is the extended real one. -/
private theorem ofBits_one_f32 : Ideal.ofBits .f32 0x3F800000#32 = 1 := by
  simp [Ideal.ofBits, Ideal.ieee]
  rw [← EReal.coe_mul]
  norm_num

/-- Row e of the column of labels is label e. -/
private theorem col_v2 (e : Fin 262144) : idx_main_v2 (ix2 e (0 : Fin 1)) = ix1 e := by
  funext a; match a with | ⟨0, _⟩ => rfl
private theorem col_v5 (e : Fin 262144) : idx_main_v5 (ix2 e (0 : Fin 1)) = ix1 e := by
  funext a; match a with | ⟨0, _⟩ => rfl
private theorem col_v36 (e : Fin 262144) : idx_main_v36 (ix2 e (0 : Fin 1)) = ix1 e := by
  funext a; match a with | ⟨0, _⟩ => rfl

/-- The counts stage at class c. -/
theorem counts_apply (x1 : IVec S262144 32) (c : Fin 64) :
    val_main_v3 (F := Ideal) x1 (ix1 c) = cnt (labelsOf x1) c := by
  unfold val_main_v3
  rw [Cert.LibScatterRows.scatterAdd_vec_apply _ rfl rfl rfl rfl]
  rw [val_main_v1_apply, val_main_cst_0_apply, Ideal.ofBits_def, Ideal.ofBits_zero_f32, zero_add]
  unfold cnt
  refine Finset.sum_congr rfl fun e _ => ?_
  rw [val_main_v2_apply, val_main_v0_apply, val_main_cst_apply, Ideal.ofBits_def, ofBits_one_f32, col_v2]
  rfl

/-- The sums stage at class c, column d. -/
theorem sums_apply (x0 : FVec Ideal S262144x128 .f32) (x1 : IVec S262144 32) (c : Fin 64) (d : Fin 128) :
    val_main_v6 (F := Ideal) x0 x1 (ix2 c d) = seg (rowsOf x0) (labelsOf x1) c d := by
  unfold val_main_v6
  rw [Cert.LibScatterRows.scatterAdd_rows_apply _ rfl rfl rfl rfl]
  rw [val_main_v4_apply, val_main_cst_1_apply, Ideal.ofBits_def, Ideal.ofBits_zero_f32, zero_add]
  unfold seg
  refine Finset.sum_congr rfl fun e _ => ?_
  rw [val_main_v5_apply, col_v5]
  rfl

/-- The centres stage at class c, column d. -/
theorem centre_apply (x0 : FVec Ideal S262144x128 .f32) (x1 : IVec S262144 32) (c : Fin 64) (d : Fin 128) :
    val_main_v11 (F := Ideal) x0 x1 (ix2 c d)
      = Ideal.div (seg (rowsOf x0) (labelsOf x1) c d) (cnt (labelsOf x1) c + Ideal.ofBits .f32 0x358637BD#32) := by
  rw [val_main_v11_apply, Ideal.hostDivf_def, sums_apply, val_main_v10_apply, val_main_v9_apply, Ideal.addf_def,
    val_main_v7_apply, val_main_v8_apply, val_main_cst_2_apply, Ideal.ofBits_def]
  have h : idx_main_v7 (idx_main_v10 (ix2 c d)) = ix1 c := by
    funext a; match a with | ⟨0, _⟩ => rfl
  rw [h, counts_apply]

/-- A sum over a rank-1 index set is the sum over its one coordinate. -/
private theorem sum_rank1 {M : Type*} [AddCommMonoid M] {n : ℕ} (f : (⟨1, ![n]⟩ : Shape).Idx → M) :
    ∑ j, f j = ∑ r : Fin n, f (ix1 r) :=
  Fintype.sum_equiv ⟨fun j => j 0, fun r => ix1 r, fun j => (eq_ix1 j).symm, fun _ => rfl⟩ f (fun r => f (ix1 r))
    (fun j => congrArg f (eq_ix1 j))

/-- A label that is not negative is not wrapped: the gather's start index for row r is label r. -/
private theorem wrapped_label (x1 : IVec S262144 32) (r : Fin 262144) (h0 : 0 ≤ (labelsOf x1 r).toInt) :
    val_main_v36 (F := Ideal) x1 (ix2 r (0 : Fin 1)) = labelsOf x1 r := by
  rw [val_main_v36_apply, col_v36, val_main_v35_apply, val_main_v32_apply, val_main_v31_apply, val_main_c_apply]
  have hc : IntOp.cmpi .slt (x1 (ix1 r)) 0#32 = 0#1 := by
    apply eq_zero_of_ne_one
    rw [IntOp.cmpi_slt]
    have hz : (0#32 : BitVec 32).toInt = 0 := by decide
    rw [hz]
    exact not_lt.mpr h0
  rw [hc, select_zero]
  rfl

/-- The gathered row r is the centre of row r's class. -/
private theorem gathered (x0 : FVec Ideal S262144x128 .f32) (x1 : IVec S262144 32)
    (r : Fin 262144) (h0 : 0 ≤ (labelsOf x1 r).toInt) (d : Fin 128) :
    val_main_v37 (F := Ideal) x0 x1 (ix2 r d)
      = val_main_v11 (F := Ideal) x0 x1 (ix2 (cls (labelsOf x1) r) d) := by
  unfold val_main_v37
  rw [Cert.LibGatherRows.gather_rows _ rfl rfl rfl rfl rfl rfl _ _ r d (by decide)]
  refine congrArg (fun q => val_main_v11 (F := Ideal) x0 x1 (ix2 q d)) (Fin.ext ?_)
  show min (val_main_v36 (F := Ideal) x1 (ix2 r (0 : Fin 1))).toInt.toNat (64 - 1) = min (labelsOf x1 r).toInt.toNat 63
  rw [wrapped_label x1 r h0]

/-- The sum of squared distances, with every label in [0, 64). -/
theorem l2sum_apply (x0 : FVec Ideal S262144x128 .f32) (x1 : IVec S262144 32)
    (hT : ∀ i : Fin 262144, 0 ≤ (labelsOf x1 i).toInt ∧ (labelsOf x1 i).toInt < 64) (i : S_.Idx) :
    val_main_v41 (F := Ideal) x0 x1 i
      = ∑ r : Fin 262144, ∑ d : Fin 128,
          (rowsOf x0 r d - val_main_v11 (F := Ideal) x0 x1 (ix2 (cls (labelsOf x1) r) d))
            * (rowsOf x0 r d - val_main_v11 (F := Ideal) x0 x1 (ix2 (cls (labelsOf x1) r) d)) := by
  rw [val_main_v41_apply, val_main_cst_12_apply, Ideal.ofBits_def, Ideal.ofBits_zero_f32, zero_add, sum_rank1]
  refine Finset.sum_congr rfl fun r _ => ?_
  rw [val_main_v40_apply, val_main_cst_11_apply, Ideal.ofBits_def, Ideal.ofBits_zero_f32, zero_add]
  refine Finset.sum_congr rfl fun d _ => ?_
  have hi : idx_main_v40 (ix1 r) d = ix2 r d := by
    funext a; match a with | ⟨0, _⟩ => rfl | ⟨1, _⟩ => rfl
  rw [hi, val_main_v39_apply, Ideal.mulf_def, val_main_v38_apply, Ideal.subf_def, gathered x0 x1 r (hT r).1 d]
  rfl

end Cert.ReferenceIdeal.RefRead

end
-- ==== Proof.KiGlueC.lean ====
/-
  The tail of the kernel's program against the reference's stages, part one: the two halves added; the counts are
  the reference's counts; with the halves' class sums adding up to the per-class column sums, the centres are the
  reference's centres; and the margin term of the reference's centres is the reference's margin term.
-/
import proofs.«424627_j40870908788740_3_alg».proof.Proof.KiTail
import proofs.«424627_j40870908788740_3_alg».proof.Proof.RefRead
import Idealize.ShloMosaic.Lib.ValueIdx
import Idealize.ShloMosaic.PureOps.Ideal.Laws

set_option maxRecDepth 16384

noncomputable section

namespace Cert.KernelIdeal.KGlue

open Idealize.ShloMosaic Idealize.ShloMosaic.ValueIdx Cert.SegMath
open Cert.KernelIdeal.KTail Cert.ReferenceIdeal.RefRead
open scoped BigOperators

/-- The class sums at class c, column d: the two halves' entries added. -/
theorem kSums_apply (A2 : FVec Ideal Cert.KernelIdeal.S2x64x128 .f32) (c : Fin 64) (d : Fin 128) :
    kSums (F := Ideal) A2 (ix2 c d) = A2 (ix3 (0 : Fin 2) c d) + A2 (ix3 (1 : Fin 2) c d) := by
  unfold kSums
  simp only [Host.reduceAdd, Ideal.hostReduceAdd_def]
  refine (Ideal.hostReduceAdd_single _ (by decide) A2 _ (ix2 c d)).trans ?_
  show Ideal.ofBits .f32 0x00000000#32 + ∑ k : Fin 2, A2 _ = _
  rw [Ideal.ofBits_zero_f32, zero_add, Fin.sum_univ_two]
  congr 2 <;>
    (funext a; apply Fin.ext; match a with | ⟨0, _⟩ => rfl | ⟨1, _⟩ => rfl | ⟨2, _⟩ => rfl)

/-- An index of the two halves' scalars is its half. -/
private def halfEquiv : Cert.KernelIdeal.S2x1x1.Idx ≃ Fin 2 where
  toFun i := i 0
  invFun a := ix3 a (0 : Fin 1) (0 : Fin 1)
  left_inv i := by
    have h1 : i 1 = (0 : Fin 1) := Fin.ext (Nat.lt_one_iff.mp (i 1).isLt)
    have h2 : i 2 = (0 : Fin 1) := Fin.ext (Nat.lt_one_iff.mp (i 2).isLt)
    funext a
    match a with
    | ⟨0, _⟩ => rfl
    | ⟨1, _⟩ => exact h1.symm
    | ⟨2, _⟩ => exact h2.symm
  right_inv _ := rfl

/-- The sum of squares: the two halves' scalars added. -/
theorem kSsq_apply (A3 : FVec Ideal Cert.KernelIdeal.S2x1x1 .f32) (i : Cert.KernelIdeal.S_.Idx) :
    kSsq (F := Ideal) A3 i = A3 (ix3 (0 : Fin 2) (0 : Fin 1) (0 : Fin 1)) + A3 (ix3 (1 : Fin 2) (0 : Fin 1) (0 : Fin 1)) := by
  unfold kSsq
  simp only [Host.reduceAdd, Ideal.hostReduceAdd_def]
  refine (Ideal.hostReduceAdd_total _ (fun b => b.elim0) A3 _ i).trans ?_
  show Ideal.ofBits .f32 0x00000000#32 + _ = _
  rw [Ideal.ofBits_zero_f32, zero_add, ← Equiv.sum_comp halfEquiv.symm A3, Fin.sum_univ_two]
  rfl

/-- The kernel's program counts as the reference does. -/
theorem kCounts_eq (x1 : IVec Cert.KernelIdeal.S262144 32) :
    kCounts (F := Ideal) x1 = Cert.ReferenceIdeal.Read.val_main_v3 (F := Ideal) x1 := by
  unfold kCounts Cert.ReferenceIdeal.Read.val_main_v3 Cert.ReferenceIdeal.Read.val_main_v1 Cert.ReferenceIdeal.Read.val_main_v2
    Cert.ReferenceIdeal.Read.val_main_v0 Cert.ReferenceIdeal.Read.val_main_cst Cert.ReferenceIdeal.Read.val_main_cst_0
  rfl

/-- With the halves' class sums adding up to the per-class column sums, the centres are the reference's. -/
theorem kCtr_eq (x0 : FVec Ideal Cert.ReferenceIdeal.S262144x128 .f32) (x1 : IVec Cert.ReferenceIdeal.S262144 32)
    (A2 : FVec Ideal Cert.KernelIdeal.S2x64x128 .f32)
    (hA2 : ∀ (c : Fin 64) (d : Fin 128), A2 (ix3 (0 : Fin 2) c d) + A2 (ix3 (1 : Fin 2) c d) = seg (rowsOf x0) (labelsOf x1) c d) :
    kCtr (F := Ideal) (kSums (F := Ideal) A2) x1 = Cert.ReferenceIdeal.Read.val_main_v11 (F := Ideal) x0 x1 := by
  have hS : kSums (F := Ideal) A2 = Cert.ReferenceIdeal.Read.val_main_v6 (F := Ideal) x0 x1 := by
    funext i
    obtain ⟨c, d, rfl⟩ : ∃ c d, i = ix2 c d := ⟨i 0, i 1, eq_ix2 i⟩
    rw [kSums_apply, hA2, sums_apply]
  unfold kCtr
  rw [hS, kCounts_eq]
  rfl

/-- The margin term of the reference's centres is the reference's margin term. -/
theorem kCC_eq (x0 : FVec Ideal Cert.ReferenceIdeal.S262144x128 .f32) (x1 : IVec Cert.ReferenceIdeal.S262144 32) :
    kTri (F := Ideal) (kHinge (F := Ideal) (Cert.ReferenceIdeal.Read.val_main_v11 (F := Ideal) x0 x1))
      = Cert.ReferenceIdeal.Read.val_main_v30 (F := Ideal) x0 x1 := by
  rfl

end Cert.KernelIdeal.KGlue

end
-- ==== Proof.SegLaw.lean ====
/-
  The algebra that joins the two programs. With every entry a real number, every centre a real number and every label
  in [0, 64): the sum over the rows of the squared distance to the row's class centre is
  (sum of squares) - 2 * (sum over classes of the class's column sums against its centre)
  + (sum over classes of the class's count times the centre's squared norm).
-/
import proofs.«424627_j40870908788740_3_alg».proof.Proof.SegMath

noncomputable section

namespace Cert.SegMath

open scoped BigOperators

variable (E : Fin 262144 → Fin 128 → EReal) (T : Fin 262144 → BitVec 32)

/-- The coercion of a finite sum of reals is the sum of the coercions. -/
private theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Summing over the classes a quantity carried only by a row's own class leaves that class's quantity. -/
private theorem sum_class {ι κ : Type*} [Fintype ι] [Fintype κ] [DecidableEq κ] (k : ι → κ) (g : ι → κ → ℝ) :
    ∑ c, ∑ i, (if k i = c then g i c else 0) = ∑ i, g i (k i) := by
  rw [Finset.sum_comm]
  refine Finset.sum_congr rfl fun i _ => ?_
  rw [Finset.sum_ite_eq]
  simp

/-- The law over the reals: rows `i`, classes `c`, columns `d`, `k i` the class of row `i`. -/
private theorem real_law {ι κ δ : Type*} [Fintype ι] [Fintype κ] [Fintype δ] [DecidableEq κ]
    (k : ι → κ) (e : ι → δ → ℝ) (γ : κ → δ → ℝ) :
    (∑ i, ∑ d, e i d * e i d - 2 * ∑ c, ∑ d, (∑ i, if k i = c then e i d else 0) * γ c d)
        + ∑ c, (∑ i, if k i = c then (1 : ℝ) else 0) * ∑ d, γ c d * γ c d
      = ∑ i, ∑ d, (e i d - γ (k i) d) * (e i d - γ (k i) d) := by
  have h1 : ∑ c, ∑ d, (∑ i, if k i = c then e i d else 0) * γ c d = ∑ i, ∑ d, e i d * γ (k i) d := by
    rw [← sum_class k (fun i c => ∑ d, e i d * γ c d)]
    refine Finset.sum_congr rfl fun c _ => ?_
    simp only [Finset.sum_mul, ite_mul, zero_mul]
    rw [Finset.sum_comm]
    refine Finset.sum_congr rfl fun i _ => ?_
    split_ifs <;> simp
  have h2 : ∑ c, (∑ i, if k i = c then (1 : ℝ) else 0) * ∑ d, γ c d * γ c d
      = ∑ i, ∑ d, γ (k i) d * γ (k i) d := by
    rw [← sum_class k (fun i c => ∑ d, γ c d * γ c d)]
    refine Finset.sum_congr rfl fun c _ => ?_
    rw [Finset.sum_mul]
    refine Finset.sum_congr rfl fun i _ => ?_
    split_ifs <;> simp
  have h3 : ∀ i d, (e i d - γ (k i) d) * (e i d - γ (k i) d)
      = e i d * e i d - 2 * (e i d * γ (k i) d) + γ (k i) d * γ (k i) d := fun i d => by ring
  rw [h1, h2]
  simp only [h3, Finset.sum_add_distrib, Finset.sum_sub_distrib, ← Finset.mul_sum]

/-- With the label in range, a row carries the label `c` exactly when its class is `c`. -/
private theorem label_iff {t : BitVec 32} (ht : 0 ≤ t.toInt ∧ t.toInt < 64) (c : Fin 64) :
    t.toInt = (c.val : ℤ) ↔ (⟨min t.toInt.toNat 63, by omega⟩ : Fin 64) = c := by
  rw [Fin.ext_iff]
  have := c.isLt
  constructor <;> intro h <;> simp only at * <;> omega

/-- A count, as the coercion of a real sum of ones. -/
private theorem cnt_eq (c : Fin 64) :
    cnt T c = ((∑ i : Fin 262144, if (T i).toInt = (c.val : ℤ) then (1 : ℝ) else 0 : ℝ) : EReal) := by
  rw [cnt, coe_sum]
  refine Finset.sum_congr rfl fun i _ => ?_
  split_ifs <;> simp

/-- A class's column sum, as the coercion of a real sum. -/
private theorem seg_eq (e : Fin 262144 → Fin 128 → ℝ) (he : ∀ i d, E i d = (e i d : EReal)) (c : Fin 64) (d : Fin 128) :
    seg E T c d = ((∑ i : Fin 262144, if (T i).toInt = (c.val : ℤ) then e i d else 0 : ℝ) : EReal) := by
  rw [seg, coe_sum]
  refine Finset.sum_congr rfl fun i _ => ?_
  split_ifs <;> simp [he]

/-- The sum of squares, as the coercion of a real sum. -/
private theorem ssq_eq (e : Fin 262144 → Fin 128 → ℝ) (he : ∀ i d, E i d = (e i d : EReal)) :
    ssq E = ((∑ i : Fin 262144, ∑ d : Fin 128, e i d * e i d : ℝ) : EReal) := by
  rw [ssq, coe_sum]
  refine Finset.sum_congr rfl fun i _ => ?_
  rw [coe_sum]
  refine Finset.sum_congr rfl fun d _ => ?_
  rw [he, EReal.coe_mul]

/-- A class's count is a natural number. -/
theorem cnt_nat (c : Fin 64) : ∃ k : ℕ, cnt T c = ((k : ℝ) : EReal) := by
  refine ⟨(Finset.univ.filter fun i : Fin 262144 => (T i).toInt = (c.val : ℤ)).card, ?_⟩
  rw [cnt_eq, Finset.sum_boole]

/-- A class's column sum of real entries is real. -/
theorem seg_real (hE : ∀ i d, ∃ r : ℝ, E i d = (r : EReal)) (c : Fin 64) (d : Fin 128) :
    ∃ r : ℝ, seg E T c d = (r : EReal) := by
  choose e he using hE
  exact ⟨_, seg_eq E T e he c d⟩

/-- The sum of squares of real entries is real. -/
theorem ssq_real (hE : ∀ i d, ∃ r : ℝ, E i d = (r : EReal)) : ∃ r : ℝ, ssq E = (r : EReal) := by
  choose e he using hE
  exact ⟨_, ssq_eq E e he⟩

/-- A centre — a real column sum divided by a count plus a positive real — is real. -/
theorem centre_real (hE : ∀ i d, ∃ r : ℝ, E i d = (r : EReal)) (ε : ℝ) (hε : 0 < ε) (z₁ z₂ : EReal) (hz₁ : z₁ = 0) (hz₂ : z₂ = 0)
    (c : Fin 64) (d : Fin 128) :
    ∃ r : ℝ, Idealize.ShloMosaic.Ideal.div (z₁ + seg E T c d) ((z₂ + cnt T c) + (ε : EReal)) = (r : EReal) := by
  obtain ⟨s, hs⟩ := seg_real E T hE c d
  obtain ⟨k, hk⟩ := cnt_nat T c
  have hne : (k : ℝ) + ε ≠ 0 := by positivity
  refine ⟨s * (1 / ((k : ℝ) + ε)), ?_⟩
  rw [hz₁, hz₂, zero_add, zero_add, hs, hk, ← EReal.coe_add, Idealize.ShloMosaic.Ideal.div_coe hne, ← EReal.coe_mul]

/-- THE LAW. -/
theorem l2_expand (C : Fin 64 → Fin 128 → EReal)
    (hE : ∀ i d, ∃ r : ℝ, E i d = (r : EReal)) (hC : ∀ c d, ∃ r : ℝ, C c d = (r : EReal))
    (hT : ∀ i, 0 ≤ (T i).toInt ∧ (T i).toInt < 64) :
    (ssq E - ((2 : ℝ) : EReal) * ∑ c : Fin 64, ∑ d : Fin 128, seg E T c d * C c d)
        + ∑ c : Fin 64, cnt T c * ∑ d : Fin 128, C c d * C c d
      = ∑ i : Fin 262144, ∑ d : Fin 128, (E i d - C (cls T i) d) * (E i d - C (cls T i) d) := by
  choose e he using hE
  choose γ hγ using hC
  have hiff : ∀ (i : Fin 262144) (c : Fin 64), (T i).toInt = (c.val : ℤ) ↔ cls T i = c :=
    fun i c => label_iff (hT i) c
  simp only [ssq_eq E e he, seg_eq E T e he, cnt_eq T, he, hγ, hiff, ← EReal.coe_mul, ← coe_sum, ← EReal.coe_sub,
    ← EReal.coe_add]
  rw [EReal.coe_eq_coe_iff]
  exact real_law (cls T) e γ

end Cert.SegMath

end
-- ==== Proof.KiGlueL.lean ====
/-
  The tail of the kernel's program against the reference's stages, part two: with every entry real, every label in
  [0, 64), the halves' class sums adding up to the per-class column sums and the halves' scalars to the sum of
  squares, the expanded distance term over the reference's centres is the reference's mean squared distance.
-/
import proofs.«424627_j40870908788740_3_alg».proof.Proof.KiGlueC
import proofs.«424627_j40870908788740_3_alg».proof.Proof.SegLaw

set_option maxRecDepth 16384

noncomputable section

namespace Cert.KernelIdeal.KGlue

open Idealize.ShloMosaic Idealize.ShloMosaic.ValueIdx Cert.SegMath
open Cert.KernelIdeal.KTail Cert.ReferenceIdeal.RefRead
open scoped BigOperators

section Reads

open Cert.KernelIdeal Cert.KernelIdeal.Facts₀ Cert.KernelIdeal.Facts

/-- The pattern of the float two is the extended real two. -/
private theorem ofBits_two_f32 : Ideal.ofBits .f32 0x40000000#32 = ((2 : ℝ) : EReal) := by
  simp [Ideal.ofBits, Ideal.ieee]
  rw [← EReal.coe_mul]
  norm_num

/-- The small constant added to the counts is a positive real number. -/
private theorem eps_pos : ∃ ε : ℝ, 0 < ε ∧ Ideal.ofBits .f32 0x358637BD#32 = (ε : EReal) := by
  simp [Ideal.ofBits, Ideal.ieee]
  exact ⟨8796093 * (2 ^ 43)⁻¹, by positivity, (EReal.coe_mul _ _).symm⟩

/-- A sum over a rank-1 index set is the sum over its one coordinate. -/
private theorem sum_idx1 {M : Type*} [AddCommMonoid M] {n : ℕ} (f : (⟨1, ![n]⟩ : Shape).Idx → M) :
    ∑ j, f j = ∑ r : Fin n, f (ix1 r) := by
  refine Fintype.sum_equiv ⟨fun j => j 0, fun r => ix1 r, fun j => (eq_ix1 j).symm, fun _ => rfl⟩ f (fun r => f (ix1 r)) ?_
  intro j
  exact congrArg f (eq_ix1 j)

/-- The sum over the columns from zero, at class c: the sum over d of the entry at (c, d). -/
private theorem rowSum_apply (y : FVec Ideal S64x128 .f32) (c : Fin 64) :
    Host.reduceAdd y (constant S_ .f32 0x00000000#32) reducesTo_S64x128_S64_d1 h_S_ (ix1 c) = ∑ d : Fin 128, y (ix2 c d) := by
  simp only [Host.reduceAdd, Ideal.hostReduceAdd_def]
  rw [Ideal.hostReduceAdd_single reducesTo_S64x128_S64_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- The sum over the classes from zero: the sum over c of the entry at c. -/
private theorem classSum_apply (z : FVec Ideal S64 .f32) (i : S_.Idx) :
    Host.reduceAdd z (constant S_ .f32 0x00000000#32) reducesTo_S64_S_d0 h_S_ i = ∑ c : Fin 64, z (ix1 c) := by
  simp only [Host.reduceAdd, Ideal.hostReduceAdd_def]
  rw [Ideal.hostReduceAdd_total reducesTo_S64_S_d0 (fun b => b.elim0), constant_apply, Ideal.ofBits_zero_f32, zero_add]
  exact sum_idx1 z

end Reads

/-- The expanded distance term is the reference's mean squared distance. -/
theorem kL2_eq (x0 : FVec Ideal Cert.ReferenceIdeal.S262144x128 .f32) (x1 : IVec Cert.ReferenceIdeal.S262144 32)
    (A2 : FVec Ideal Cert.KernelIdeal.S2x64x128 .f32) (A3 : FVec Ideal Cert.KernelIdeal.S2x1x1 .f32)
    (hE : ∀ i, ∃ r : ℝ, x0 i = (r : EReal)) (hT : ∀ i, 0 ≤ (x1 i).toInt ∧ (x1 i).toInt < 64)
    (hA2 : ∀ (c : Fin 64) (d : Fin 128), A2 (ix3 (0 : Fin 2) c d) + A2 (ix3 (1 : Fin 2) c d) = seg (rowsOf x0) (labelsOf x1) c d)
    (hA3 : A3 (ix3 (0 : Fin 2) (0 : Fin 1) (0 : Fin 1)) + A3 (ix3 (1 : Fin 2) (0 : Fin 1) (0 : Fin 1)) = ssq (rowsOf x0)) :
    kL2 (F := Ideal) (kSums (F := Ideal) A2) (kSsq (F := Ideal) A3) (Cert.ReferenceIdeal.Read.val_main_v11 (F := Ideal) x0 x1) x1
      = Cert.ReferenceIdeal.Read.val_main_v42 (F := Ideal) x0 x1 := by
  funext i
  -- both sides divide a numerator by the same constant: it suffices that the numerators agree at the one index
  unfold kL2 Cert.ReferenceIdeal.Read.val_main_v42
  show FloatOps.hostDivf (F := Ideal) (φ := .f32) _ _ = FloatOps.hostDivf (F := Ideal) (φ := .f32) _ _
  refine congrArg₂ _ ?_ rfl
  -- the kernel's numerator: ssq - 2 * Σ_c Σ_d seg c d * C c d + Σ_c cnt c * Σ_d C c d * C c d
  rw [addf_apply, subf_apply, mulf_apply, constant_apply, classSum_apply, classSum_apply, kSsq_apply, hA3, ofBits_two_f32]
  simp only [rowSum_apply, mulf_apply, kSums_apply, hA2, kCounts_eq, counts_apply]
  -- the reference's numerator: the sum over the rows of the squared distance to the row's class centre
  have hT' : ∀ r : Fin 262144, 0 ≤ (labelsOf x1 r).toInt ∧ (labelsOf x1 r).toInt < 64 := fun r => hT (ix1 r)
  rw [l2sum_apply x0 x1 hT' i]
  -- every centre is a real number: a real column sum over a count plus a positive real
  have hE' : ∀ r d, ∃ v : ℝ, rowsOf x0 r d = (v : EReal) := fun r d => hE (ix2 r d)
  have hC : ∀ c d, ∃ v : ℝ, Cert.ReferenceIdeal.Read.val_main_v11 (F := Ideal) x0 x1 (ix2 c d) = (v : EReal) := by
    intro c d
    obtain ⟨ε, hε, hεb⟩ := eps_pos
    have h := centre_real (rowsOf x0) (labelsOf x1) hE' ε hε 0 0 rfl rfl c d
    rw [zero_add, zero_add] at h
    rw [centre_apply, hεb]
    exact h
  exact l2_expand (rowsOf x0) (labelsOf x1) (fun c d => Cert.ReferenceIdeal.Read.val_main_v11 (F := Ideal) x0 x1 (ix2 c d)) hE' hC hT'

end Cert.KernelIdeal.KGlue

end
-- ==== Proof.PreFacts.lean ====
/-
  What the precondition says of the arguments at the extended reals: every entry of the embeddings is a real number,
  and every label, read signed, lies in [0, 64).
-/
import proofs.«424627_j40870908788740_3_alg».proof.Pre_finite_inputs
import proofs.«424627_j40870908788740_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

/-- The rank-0 shape has one index: two indices agree at each of their (no) coordinates. -/
private instance : Subsingleton S_.Idx := ⟨fun a b => funext fun d => d.elim0⟩

/-- Every entry of the first argument is a real number. -/
theorem finite_of_pre (x0 : FVec Ideal S262144x128 .f32) (x1 : IVec S262144 32)
    (h : Cert.Pre_finite_inputs.fn (F := Ideal) x0 x1 = fun _ => 1#1) (i : S262144x128.Idx) :
    ∃ r : ℝ, x0 i = (r : EReal) := by
  -- the predicate at its one index is a conjunction of three bits, each the conjunction over all entries of a comparison
  have h0 := congrFun h (fun d => d.elim0)
  dsimp only [Cert.Pre_finite_inputs.fn] at h0
  change IntOp.andi (IntOp.andi _ _) _ = 1#1 at h0
  obtain ⟨h7, h10⟩ := IntOp.andi_eq_one.1 h0
  obtain ⟨h3, h6⟩ := IntOp.andi_eq_one.1 h7
  -- the first conjunct at entry i: |x0 i| = max (x0 i) (-(x0 i)) lies strictly below the pattern of +infinity, which denotes ⊤
  have e := Host.reduce_andi_all _ _ _ _ _ h3 i
  change Ideal.cmp .olt (max (x0 i) (-(x0 i))) (Ideal.ofBits .f32 0x7F800000#32) = 1#1 at e
  have htop : Ideal.ofBits .f32 0x7F800000#32 = ⊤ := by simp [Ideal.ofBits, Ideal.ieee]
  rw [htop] at e
  simp only [Ideal.cmp, StableHlo.Predicate.ofBool_eq_one_iff, decide_eq_true_eq] at e
  -- x < ⊤ excludes ⊤, and -x < ⊤ excludes ⊥: what is left is a real number
  obtain ⟨ea, eb⟩ := max_lt_iff.1 e
  generalize x0 i = x at ea eb ⊢
  induction x using EReal.rec with
  | bot => exact absurd eb (by simp)
  | top => exact absurd ea (lt_irrefl _)
  | coe r => exact ⟨r, rfl⟩

/-- Every label, read signed, lies in [0, 64). -/
theorem range_of_pre (x0 : FVec Ideal S262144x128 .f32) (x1 : IVec S262144 32)
    (h : Cert.Pre_finite_inputs.fn (F := Ideal) x0 x1 = fun _ => 1#1) (i : S262144.Idx) :
    0 ≤ (x1 i).toInt ∧ (x1 i).toInt < 64 := by
  have h0 := congrFun h (fun d => d.elim0)
  dsimp only [Cert.Pre_finite_inputs.fn] at h0
  change IntOp.andi (IntOp.andi _ _) _ = 1#1 at h0
  obtain ⟨h7, h10⟩ := IntOp.andi_eq_one.1 h0
  obtain ⟨h3, h6⟩ := IntOp.andi_eq_one.1 h7
  -- the second and third conjuncts at label i: 0 ≤ x1 i and x1 i < 64 as signed words, each constant read at i being itself
  have e1 := Host.reduce_andi_all _ _ _ _ _ h6 i
  have e2 := Host.reduce_andi_all _ _ _ _ _ h10 i
  change IntOp.cmpi .sge (x1 i) 0#32 = 1#1 at e1
  change IntOp.cmpi .slt (x1 i) 64#32 = 1#1 at e2
  simp only [IntOp.cmpi, StableHlo.Predicate.ofBool_eq_one_iff, BitVec.sle, BitVec.slt, decide_eq_true_eq] at e1 e2
  -- the words 0 and 64 read signed are the integers 0 and 64
  have z0 : (0#32 : BitVec 32).toInt = 0 := by decide
  have z64 : (64#32 : BitVec 32).toInt = 64 := by decide
  rw [z0] at e1
  rw [z64] at e2
  exact ⟨e1, e2⟩

end Cert.PreFacts

end
-- ==== Proof.lean ====
/-
  The certificate of a centroid loss: N = 262144 embeddings of 128 columns, 64 class labels.

  Both programs form the per-class counts and column sums, the class centres (sums over count plus a small constant),
  and the same pairwise margin term of the centres. They differ in the distance term. The reference gathers each
  row's class centre and averages the squared distances. The kernel streams the embeddings once: a pipelined region
  over a 2 x 8 grid accumulates, per half of the rows, the class sums (a one-hot of the labels against the block, as
  a matrix product) and the sum of squares; the host then expands
      sum_i |e_i - c(t_i)|^2 = sum |e|^2 - 2 sum_c <s_c, c_c> + sum_c n_c |c_c|^2.
  Over the extended reals the two agree when every embedding is a real number (the products must distribute) and
  every label names one of the 64 classes (outside that range the reference's gather clamps the label while both
  programs' segment sums drop the row, and the two results differ); the precondition states both.

  Frames: each kernel program runs its region case by case (a reset point, any other point) around one host
  operation before it and seventy after it; the reference's run is its generated host run.
  Algebraic: the kernel program's result is the tail function of the two arrays the region leaves; the halves add up
  to the segment sums; the centres and the margin term are then the reference's own, and the distance terms agree by
  the expansion above.
-/
import proofs.«424627_j40870908788740_3_alg».proof.Defs
import proofs.«424627_j40870908788740_3_alg».proof.Proof.Gen.Kernel
import proofs.«424627_j40870908788740_3_alg».proof.Proof.Gen.KernelIdeal
import proofs.«424627_j40870908788740_3_alg».proof.Proof.Gen.ReferenceIdeal
import proofs.«424627_j40870908788740_3_alg».proof.Proof.Gen.Pre_finite_inputs
import proofs.«424627_j40870908788740_3_alg».proof.Proof.Gen.ReferenceIdeal.Run
import proofs.«424627_j40870908788740_3_alg».proof.Proof.Gen.ReferenceIdeal.Read
import proofs.«424627_j40870908788740_3_alg».proof.Proof.KbFrame
import proofs.«424627_j40870908788740_3_alg».proof.Proof.KiFrame
import proofs.«424627_j40870908788740_3_alg».proof.Proof.KiRun
import proofs.«424627_j40870908788740_3_alg».proof.Proof.KiGlueL
import proofs.«424627_j40870908788740_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition, with the two halves' arrays adding up to the segment sums and the sum of squares, the
    kernel program's tail function is the reference's result: the centres are the reference's, so is the margin term,
    and the expanded distance term is the mean squared distance. -/
theorem result_eq (x0 : FVec Ideal Cert.ReferenceIdeal.S262144x128 .f32) (x1 : IVec Cert.ReferenceIdeal.S262144 32)
    (A2 : FVec Ideal Cert.KernelIdeal.S2x64x128 .f32) (A3 : FVec Ideal Cert.KernelIdeal.S2x1x1 .f32)
    (hpre : Cert.Pre_finite_inputs.fn (F := Ideal) x0 x1 = fun _ => 1#1)
    (hA2 : ∀ (c : Fin 64) (d : Fin 128), A2 (ix3 (0 : Fin 2) c d) + A2 (ix3 (1 : Fin 2) c d)
      = Cert.SegMath.seg (Cert.ReferenceIdeal.RefRead.rowsOf x0) (Cert.ReferenceIdeal.RefRead.labelsOf x1) c d)
    (hA3 : A3 (ix3 (0 : Fin 2) (0 : Fin 1) (0 : Fin 1)) + A3 (ix3 (1 : Fin 2) (0 : Fin 1) (0 : Fin 1))
      = Cert.SegMath.ssq (Cert.ReferenceIdeal.RefRead.rowsOf x0)) :
    Cert.KernelIdeal.KTail.kOut (F := Ideal) A2 A3 x1 = Cert.ReferenceIdeal.Read.val_main_v43 (F := Ideal) x0 x1 := by
  have hE := fun i => Cert.PreFacts.finite_of_pre x0 x1 hpre i
  have hT := fun i => Cert.PreFacts.range_of_pre x0 x1 hpre i
  unfold Cert.KernelIdeal.KTail.kOut
  rw [Cert.KernelIdeal.KGlue.kCtr_eq x0 x1 A2 hA2, Cert.KernelIdeal.KGlue.kL2_eq x0 x1 A2 A3 hE hT hA2 hA3,
    Cert.KernelIdeal.KGlue.kCC_eq x0 x1]
  rfl

theorem algebraic : Cert.algebraic_KernelIdeal_ReferenceIdeal := by
  intro m ρ m' ρ' hpre hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.KValue.run m ρ)
    exact result_eq _ _ _ _ (hpre c) (Cert.KernelIdeal.KValue.arr2_sum m c) (Cert.KernelIdeal.KValue.arr3_sum m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
